-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S1x32 : Shape := ⟨2, ![1, 32]⟩
abbrev S20001x512 : Shape := ⟨2, ![20001, 512]⟩
abbrev S1000x400 : Shape := ⟨2, ![1000, 400]⟩
abbrev S512x400 : Shape := ⟨2, ![512, 400]⟩
abbrev S400 : Shape := ⟨1, ![400]⟩
abbrev S400x8 : Shape := ⟨2, ![400, 8]⟩
abbrev S8 : Shape := ⟨1, ![8]⟩
abbrev S_ : Shape := ⟨0, ![]⟩

class Facts : Prop where
  bcast_S_S20001x512 : S_.BroadcastsInDim S20001x512 (![] : Fin 0 → Fin S20001x512.rank)
  reducesTo_S20001x512_S_d0_1 : S20001x512.ReducesTo [0, 1] S_
  h_S_ : 0 < S_.numel
  bcast_S_S1000x400 : S_.BroadcastsInDim S1000x400 (![] : Fin 0 → Fin S1000x400.rank)
  reducesTo_S1000x400_S_d0_1 : S1000x400.ReducesTo [0, 1] S_
  bcast_S_S512x400 : S_.BroadcastsInDim S512x400 (![] : Fin 0 → Fin S512x400.rank)
  reducesTo_S512x400_S_d0_1 : S512x400.ReducesTo [0, 1] S_
  bcast_S_S400 : S_.BroadcastsInDim S400 (![] : Fin 0 → Fin S400.rank)
  reducesTo_S400_S_d0 : S400.ReducesTo [0] S_
  bcast_S_S400x8 : S_.BroadcastsInDim S400x8 (![] : Fin 0 → Fin S400x8.rank)
  reducesTo_S400x8_S_d0_1 : S400x8.ReducesTo [0, 1] S_
  bcast_S_S8 : S_.BroadcastsInDim S8 (![] : Fin 0 → Fin S8.rank)
  reducesTo_S8_S_d0 : S8.ReducesTo [0] S_
  bcast_S_S16x512 : S_.BroadcastsInDim S16x512 (![] : Fin 0 → Fin S16x512.rank)
  reducesTo_S16x512_S_d0_1 : S16x512.ReducesTo [0, 1] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg0 : IVec S16x512 32) (main_arg1 : IVec S1x32 32) (main_v32 : IVec S_ 1) (main_c_12 : IVec S_ 32) : IVec S_ 1 :=
  let main_v33 : IVec S16x512 32 := broadcastInDim S16x512 ![] bcast_S_S16x512 main_c_12
  let main_v34 : IVec S16x512 1 := cmpi .sle main_arg0 main_v33
  let main_c_13 : IVec S_ 1 := constantI S_ 1 1#1
  let main_v35 : IVec S_ 1 := (fun x v => Host.reduce IntOp.andi x v reducesTo_S16x512_S_d0_1 h_S_) main_v34 main_c_13
  let main_v36 : IVec S_ 1 := andi main_v32 main_v35
  let main_c_14 : IVec S_ 32 := constantI S_ 32 4294966296#32
  let main_v37 : IVec S1x32 32 := broadcastInDim S1x32 ![] bcast_S_S1x32 main_c_14
  let main_v38 : IVec S1x32 1 := cmpi .sge main_arg1 main_v37
  let main_c_15 : IVec S_ 1 := constantI S_ 1 1#1
  let main_v39 : IVec S_ 1 := (fun x v => Host.reduce IntOp.andi x v reducesTo_S1x32_S_d0_1 h_S_) main_v38 main_c_15
  let main_v40 : IVec S_ 1 := andi main_v36 main_v39
  let main_c_16 : IVec S_ 32 := constantI S_ 32 999#32
  let main_v41 : IVec S1x32 32 := broadcastInDim S1x32 ![] bcast_S_S1x32 main_c_16
  let main_v42 : IVec S1x32 1 := cmpi .sle main_arg1 main_v41
  let main_c_17 : IVec S_ 1 := constantI S_ 1 1#1
  let main_v43 : IVec S_ 1 := (fun x v => Host.reduce IntOp.andi x v reducesTo_S1x32_S_d0_1 h_S_) main_v42 main_c_17
  let main_v44 : IVec S_ 1 := andi main_v40 main_v43
  main_v44

def fn_part1 {F : FTy → Type} [FloatOps F] (main_arg0 : IVec S16x512 32) (main_arg1 : IVec S1x32 32) (main_arg6 : FVec F S400x8 .f32) (main_arg7 : FVec F S8 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400x8 .f32 := Host.absf main_arg6
  let main_cst_6 : FVec F S_ .f32 := constant S_ .f32 0x7F800000#32
  let main_v20 : FVec F S400x8 .f32 := broadcastInDim S400x8 ![] bcast_S_S400x8 main_cst_6
  let main_v21 : IVec S400x8 1 := cmpf .olt main_v19 main_v20
  let main_c_7 : IVec S_ 1 := constantI S_ 1 1#1
  let main_v22 : IVec S_ 1 := (fun x v => Host.reduce IntOp.andi x v reducesTo_S400x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_c_10 : IVec S_ 32 := constantI S_ 32 4294947295#32
  let main_v29 : IVec S16x512 32 := broadcastInDim S16x512 ![] bcast_S_S16x512 main_c_10
  let main_v30 : IVec S16x512 1 := cmpi .sge main_arg0 main_v29
  let main_c_11 : IVec S_ 1 := constantI S_ 1 1#1
  let main_v31 : IVec S_ 1 := (fun x v => Host.reduce IntOp.andi x v reducesTo_S16x512_S_d0_1 h_S_) main_v30 main_c_11
  let main_v32 : IVec S_ 1 := andi main_v28 main_v31
  let main_c_12 : IVec S_ 32 := constantI S_ 32 20000#32
  fn_part2 (F := F) main_arg0 main_arg1 main_v32 main_c_12

def fn {F : FTy → Type} [FloatOps F] (main_arg0 : IVec S16x512 32) (main_arg1 : IVec S1x32 32) (main_arg2 : FVec F S20001x512 .f32) (main_arg3 : FVec F S1000x400 .f32) (main_arg4 : FVec F S512x400 .f32) (main_arg5 : FVec F S400 .f32) (main_arg6 : FVec F S400x8 .f32) (main_arg7 : FVec F S8 .f32) : IVec S_ 1 :=
  let main_v0 : FVec F S20001x512 .f32 := Host.absf main_arg2
  let main_cst : FVec F S_ .f32 := constant S_ .f32 0x7F800000#32
  let main_v1 : FVec F S20001x512 .f32 := broadcastInDim S20001x512 ![] bcast_S_S20001x512 main_cst
  let main_v2 : IVec S20001x512 1 := cmpf .olt main_v0 main_v1
  let main_c : IVec S_ 1 := constantI S_ 1 1#1
  let main_v3 : IVec S_ 1 := (fun x v => Host.reduce IntOp.andi x v reducesTo_S20001x512_S_d0_1 h_S_) main_v2 main_c
  let main_v4 : FVec F S1000x400 .f32 := Host.absf main_arg3
  let main_cst_0 : FVec F S_ .f32 := constant S_ .f32 0x7F800000#32
  let main_v5 : FVec F S1000x400 .f32 := broadcastInDim S1000x400 ![] bcast_S_S1000x400 main_cst_0
  let main_v6 : IVec S1000x400 1 := cmpf .olt main_v4 main_v5
  let main_c_1 : IVec S_ 1 := constantI S_ 1 1#1
  let main_v7 : IVec S_ 1 := (fun x v => Host.reduce IntOp.andi x v reducesTo_S1000x400_S_d0_1 h_S_) main_v6 main_c_1
  let main_v8 : IVec S_ 1 := andi main_v3 main_v7
  let main_v9 : FVec F S512x400 .f32 := Host.absf main_arg4
  let main_cst_2 : FVec F S_ .f32 := constant S_ .f32 0x7F800000#32
  let main_v10 : FVec F S512x400 .f32 := broadcastInDim S512x400 ![] bcast_S_S512x400 main_cst_2
  let main_v11 : IVec S512x400 1 := cmpf .olt main_v9 main_v10
  let main_c_3 : IVec S_ 1 := constantI S_ 1 1#1
  let main_v12 : IVec S_ 1 := (fun x v => Host.reduce IntOp.andi x v reducesTo_S512x400_S_d0_1 h_S_) main_v11 main_c_3
  let main_v13 : IVec S_ 1 := andi main_v8 main_v12
  let main_v14 : FVec F S400 .f32 := Host.absf main_arg5
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg0 main_arg1 main_arg6 main_arg7 main_v13 main_v16
-- ==== Kernel.lean ====
abbrev S16x512 : Shape := ⟨2, ![16, 512]⟩
abbrev S1x32 : Shape := ⟨2, ![1, 32]⟩
abbrev S20001x512 : Shape := ⟨2, ![20001, 512]⟩
abbrev S1000x400 : Shape := ⟨2, ![1000, 400]⟩
abbrev S512x400 : Shape := ⟨2, ![512, 400]⟩
abbrev S400 : Shape := ⟨1, ![400]⟩
abbrev S400x8 : Shape := ⟨2, ![400, 8]⟩
abbrev S8 : Shape := ⟨1, ![8]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16x512x512 : Shape := ⟨3, ![16, 512, 512]⟩
abbrev S32 : Shape := ⟨1, ![32]⟩
abbrev S32x1 : Shape := ⟨2, ![32, 1]⟩
abbrev S1x1 : Shape := ⟨2, ![1, 1]⟩
abbrev S32x400 : Shape := ⟨2, ![32, 400]⟩
abbrev S8x400 : Shape := ⟨2, ![8, 400]⟩
abbrev S16x32x512 : Shape := ⟨3, ![16, 32, 512]⟩
abbrev S1x512x512 : Shape := ⟨3, ![1, 512, 512]⟩
abbrev S1x32x512 : Shape := ⟨3, ![1, 32, 512]⟩
abbrev S512x512 : Shape := ⟨2, ![512, 512]⟩
abbrev S1x400 : Shape := ⟨2, ![1, 400]⟩
abbrev S1x8x400 : Shape := ⟨3, ![1, 8, 400]⟩
abbrev S8x8x400 : Shape := ⟨3, ![8, 8, 400]⟩
abbrev S1x512x400 : Shape := ⟨3, ![1, 512, 400]⟩
abbrev S8x1x400 : Shape := ⟨3, ![8, 1, 400]⟩
abbrev S8x512x400 : Shape := ⟨3, ![8, 512, 400]⟩
abbrev S8x8x512 : Shape := ⟨3, ![8, 8, 512]⟩
abbrev S1x8x1 : Shape := ⟨3, ![1, 8, 1]⟩
abbrev S8x8 : Shape := ⟨2, ![8, 8]⟩
abbrev S8x8x1 : Shape := ⟨3, ![8, 8, 1]⟩
abbrev S8x512 : Shape := ⟨2, ![8, 512]⟩
abbrev S1x8x512 : Shape := ⟨3, ![1, 8, 512]⟩

abbrev nBuf : Space → Nat
  | .hbm => 60
  | .vmem => 9
  | .smem => 0
  | _ => 0

abbrev bufTy : (tb : Table) → Fin (tcTables nBuf tb) → BufTy
  | .hbm, ⟨0, _⟩ => ⟨S16x512, .i32⟩
  | .hbm, ⟨1, _⟩ => ⟨S1x32, .i32⟩
  | .hbm, ⟨2, _⟩ => ⟨S20001x512, .f32⟩
  | .hbm, ⟨3, _⟩ => ⟨S1000x400, .f32⟩
  | .hbm, ⟨4, _⟩ => ⟨S512x400, .f32⟩
  | .hbm, ⟨5, _⟩ => ⟨S400, .f32⟩
  | .hbm, ⟨6, _⟩ => ⟨S400x8, .f32⟩
  | .hbm, ⟨7, _⟩ => ⟨S8, .f32⟩
  | .hbm, ⟨8, _⟩ => ⟨S_, .i32⟩
  | .hbm, ⟨9, _⟩ => ⟨S16x512, .i32⟩
  | .hbm, ⟨10, _⟩ => ⟨S16x512, .i1⟩
  | .hbm, ⟨11, _⟩ => ⟨S_, .i32⟩
  | .hbm, ⟨12, _⟩ => ⟨S16x512, .i32⟩
  | .hbm, ⟨13, _⟩ => ⟨S16x512, .i32⟩
  | .hbm, ⟨14, _⟩ => ⟨S16x512, .i32⟩
  | .hbm, ⟨15, _⟩ => ⟨S16x512x1, .i32⟩
  | .hbm, ⟨16, _⟩ => ⟨S1, .i32⟩
  | .hbm, ⟨17, _⟩ => ⟨S_, .i32⟩
  | .hbm, ⟨18, _⟩ => ⟨S16x512x1, .i32⟩
  | .hbm, ⟨19, _⟩ => ⟨S16x512x1, .i1⟩
  | .hbm, ⟨20, _⟩ => ⟨S1x1x1, .i32⟩
  | .hbm, ⟨21, _⟩ => ⟨S16x512x1, .i32⟩
  | .hbm, ⟨22, _⟩ => ⟨S16x512x1, .i1⟩
  | .hbm, ⟨23, _⟩ => ⟨S16x512x1, .i1⟩
  | .hbm, ⟨24, _⟩ => ⟨S_, .i1⟩
  | .hbm, ⟨25, _⟩ => ⟨S16x512, .i1⟩
  | .hbm, ⟨26, _⟩ => ⟨S16x512x512, .f32⟩
  | .hbm, ⟨27, _⟩ => ⟨S16x512x512, .i1⟩
  | .hbm, ⟨28, _⟩ => ⟨S_, .f32⟩
  | .hbm, ⟨29, _⟩ => ⟨S16x512x512, .f32⟩
  | .hbm, ⟨30, _⟩ => ⟨S16x512x512, .f32⟩
  | .hbm, ⟨31, _⟩ => ⟨S16x512x512, .bf16⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S32x400, .f32⟩
  | .hbm, ⟨52, _⟩ => ⟨S32x400, .i1⟩
  | .hbm, ⟨53, _⟩ => ⟨S_, .f32⟩
  | .hbm, ⟨54, _⟩ => ⟨S32x400, .f32⟩
  | .hbm, ⟨55, _⟩ => ⟨S32x400, .f32⟩
  | .hbm, ⟨56, _⟩ => ⟨S512x400, .bf16⟩
  | .hbm, ⟨57, _⟩ => ⟨S8x400, .f32⟩
  | .hbm, ⟨58, _⟩ => ⟨S8x400, .bf16⟩
  | .hbm, ⟨59, _⟩ => ⟨S16x32x512, .f32⟩
  | .local _ .vmem, ⟨0, _⟩ => ⟨S1x512x512, .bf16⟩
  | .local _ .vmem, ⟨1, _⟩ => ⟨S1x512x512, .bf16⟩
  | .local _ .vmem, ⟨2, _⟩ => ⟨S512x400, .bf16⟩
  | .local _ .vmem, ⟨3, _⟩ => ⟨S400, .f32⟩
  | .local _ .vmem, ⟨4, _⟩ => ⟨S32x400, .f32⟩
  | .local _ .vmem, ⟨5, _⟩ => ⟨S8x400, .bf16⟩
  | .local _ .vmem, ⟨6, _⟩ => ⟨S8, .f32⟩
  | .local _ .vmem, ⟨7, _⟩ => ⟨S1x32x512, .f32⟩
  | .local _ .vmem, ⟨8, _⟩ => ⟨S1x32x512, .f32⟩
  | _, _ => ⟨S16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v16 : BitVec 32 := Scalar.muli arg8 c8_i32
  v16
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v16 : BitVec 32 := Scalar.muli arg8 c8_i32
  let v17 : BitVec 32 := v16
  let v18 : Index := Scalar.indexCast v17
  let c0_9 : Index := 0#32
  ![v18.toNat, 0]
def k0_off2 (k0_t1 : Fin k0_t1_loop.trips) : Fin 3 → Nat :=
  let c0_15 : Index := 0#32
  let c0_i32 : BitVec 32 := 0#32
  let c1_i32 : BitVec 32 := 1#32
  let arg8 : BitVec 32 := Scf.iv c0_i32 c1_i32 k0_t1
  let c8_i32 : BitVec 32 := 8#32
  let v16 : BitVec 32 := Scalar.muli arg8 c8_i32
  let v17 : BitVec 32 := v16
  let v44 : Index := Scalar.indexCast v17
  let c0_16 : Index := 0#32
  ![0, v44.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S16x512x512_0_1 : S16x512.BroadcastsInDim S16x512x512 (![0, 1] : Fin 2 → Fin S16x512x512.rank)
  bcast_S_S16x512x512 : S_.BroadcastsInDim S16x512x512 (![] : Fin 0 → Fin S16x512x512.rank)
  bitsLt_bf16_f32 : FTy.bits .bf16 < FTy.bits .f32
  shapeCasts_S1x32_S32 : S1x32.ShapeCasts S32
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  bcast_S32_S32x400_0 : S32.BroadcastsInDim S32x400 (![0] : Fin 1 → Fin S32x400.rank)
  bcast_S_S32x400 : S_.BroadcastsInDim S32x400 (![] : Fin 0 → Fin S32x400.rank)
  transposes_S400x8_S8x400_1_0 : S400x8.Transposes [1, 0] S8x400
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x400_S512x400_0_0 : ∀ a, (![0, 0] : Fin 2 → Nat) a + S512x400.size a ≤ S512x400.size a
  h_S512x400 : 0 < S512x400.numel
  shapeCasts_S512x400_S512x400 : S512x400.ShapeCasts S512x400
  inb_S400_S400_0 : ∀ a, (![0] : Fin 1 → Nat) a + S400.size a ≤ S400.size a
  h_S400 : 0 < S400.numel
  inb_S8x400_S8x400_0_0 : ∀ a, (![0, 0] : Fin 2 → Nat) a + S8x400.size a ≤ S8x400.size a
  h_S8x400 : 0 < S8x400.numel
  shapeCasts_S8x400_S8x400 : S8x400.ShapeCasts S8x400
  inb_S8_S8_0 : ∀ a, (![0] : Fin 1 → Nat) a + S8.size a ≤ S8.size a
  h_S8 : 0 < S8.numel
  shapeCasts_S400_S1x400 : S400.ShapeCasts S1x400
  broadcasts_S1x400_S512x400 : S1x400.Broadcasts S512x400
  shapeCasts_S8x400_S1x8x400 : S8x400.ShapeCasts S1x8x400
  shapeCasts_S1x8x400_S1x8x400 : S1x8x400.ShapeCasts S1x8x400
  broadcasts_S1x8x400_S8x8x400 : S1x8x400.Broadcasts S8x8x400
  shapeCasts_S512x400_S1x512x400 : S512x400.ShapeCasts S1x512x400
  shapeCasts_S8x400_S8x1x400 : S8x400.ShapeCasts S8x1x400
  broadcasts_S1x512x400_S8x512x400 : S1x512x400.Broadcasts S8x512x400
  broadcasts_S8x1x400_S8x512x400 : S8x1x400.Broadcasts S8x512x400
  shapeCasts_S8_S1x8x1 : S8.ShapeCasts S1x8x1
  broadcasts_S1x8x1_S8x8x512 : S1x8x1.Broadcasts S8x8x512
  reduces_S8x8x512_S8x8 : S8x8x512.Reduces [2] S8x8
  shapeCasts_S8x8_S8x8x1 : S8x8.ShapeCasts S8x8x1
  broadcasts_S8x8x1_S8x8x512 : S8x8x1.Broadcasts S8x8x512
  reduces_S8x8x512_S8x512 : S8x8x512.Reduces [1] S8x512
  h_S1x8x512 : 0 < S1x8x512.numel
  shapeCasts_S1x8x512_S8x512 : S1x8x512.ShapeCasts S8x512
  shapeCasts_S8x512_S1x8x512 : S8x512.ShapeCasts S1x8x512
  gather_S20001x512_S16x512x1_S16x512x512_2_0_n_n_0_2_1512_wf : GatherDims.WF S20001x512 S16x512x1 S16x512x512 [2] [0] [] [0] [] 2 ![1, 512]
  gather_S1000x400_S32x1_S32x400_1_0_n_n_0_1_1400_wf : GatherDims.WF S1000x400 S32x1 S32x400 [1] [0] [] [0] [] 1 ![1, 400]
  dot_S512x512_S512x400_S512x400_1_0_0_1_n_n_wf : DotDims.WF S512x512 S512x400 S512x400 [1] [0] [0] [1] [] []
  dot_S8x8x400_S8x512x400_S8x8x512_2_2_1_1_0_0_wf : DotDims.WF S8x8x400 S8x512x400 S8x8x512 [2] [2] [1] [1] [0] [0]
  dot_S8x512_S512x512_S8x512_1_0_0_1_n_n_wf : DotDims.WF S8x512 S512x512 S8x512 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x400.size a ≤ S32x400.size a
  k0_off2_inb : ∀ k0_t1 : Fin k0_t1_loop.trips, ∀ a, (k0_off2 k0_t1) a + S1x8x512.size a ≤ S1x32x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x512x512.size a
  hwx0_0 : ∀ i : grid0.Coords, EltTy.bits .bf16 = 32 ∨ (Rect.block (s := S16x512x512) S1x512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x400.size a ≤ S512x400.size a
  hwx0_1 : ∀ i : grid0.Coords, EltTy.bits .bf16 = 32 ∨ (Rect.block (s := S512x400) S512x400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x400.size a ≤ S32x400.size a
  hwx0_3 : ∀ i : grid0.Coords, EltTy.bits .f32 = 32 ∨ (Rect.block (s := S32x400) S32x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x400.size a ≤ S8x400.size a
  hwx0_4 : ∀ i : grid0.Coords, EltTy.bits .bf16 = 32 ∨ (Rect.block (s := S8x400) S8x400.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x512.size a ≤ S16x32x512.size a
  hwx0_6 : ∀ i : grid0.Coords, EltTy.bits .f32 = 32 ∨ (Rect.block (s := S16x32x512) S1x32x512.size (cc0_transform_6 i) (hinb0_6 i)).WholeWords (EltTy.packing .f32)

variable [Facts₀]

def gather_S20001x512_S16x512x1_S16x512x512_2_0_n_n_0_2_1512 : GatherDims S20001x512 S16x512x1 S16x512x512 where
  offsetDims := [2]
  collapsedSliceDims := [0]
  operandBatchingDims := []
  startIndicesBatchingDims := []
  startIndexMap := [0]
  indexVectorDim := 2
  sliceSizes := ![1, 512]
  wf := gather_S20001x512_S16x512x1_S16x512x512_2_0_n_n_0_2_1512_wf
def gather_S1000x400_S32x1_S32x400_1_0_n_n_0_1_1400 : GatherDims S1000x400 S32x1 S32x400 where
  offsetDims := [1]
  collapsedSliceDims := [0]
  operandBatchingDims := []
  startIndicesBatchingDims := []
  startIndexMap := [0]
  indexVectorDim := 1
  sliceSizes := ![1, 400]
  wf := gather_S1000x400_S32x1_S32x400_1_0_n_n_0_1_1400_wf
def dot_S512x512_S512x400_S512x400_1_0_0_1_n_n : DotDims S512x512 S512x400 S512x400 where
  lhsContracting := [1]
  rhsContracting := [0]
  lhsNonContracting := [0]
  rhsNonContracting := [1]
  lhsBatch := []
  rhsBatch := []
  wf := dot_S512x512_S512x400_S512x400_1_0_0_1_n_n_wf
def dot_S8x8x400_S8x512x400_S8x8x512_2_2_1_1_0_0 : DotDims S8x8x400 S8x512x400 S8x8x512 where
  lhsContracting := [2]
  rhsContracting := [2]
  lhsNonContracting := [1]
  rhsNonContracting := [1]
  lhsBatch := [0]
  rhsBatch := [0]
  wf := dot_S8x8x400_S8x512x400_S8x8x512_2_2_1_1_0_0_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf

abbrev win0_0 : Pipeline.Window sig grid0 :=
  Pipeline.Window.ofSpec (Memref.whole main_v1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512 : Shape := ⟨2, ![16, 512]⟩
abbrev S1x32 : Shape := ⟨2, ![1, 32]⟩
abbrev S20001x512 : Shape := ⟨2, ![20001, 512]⟩
abbrev S1000x400 : Shape := ⟨2, ![1000, 400]⟩
abbrev S512x400 : Shape := ⟨2, ![512, 400]⟩
abbrev S400 : Shape := ⟨1, ![400]⟩
abbrev S400x8 : Shape := ⟨2, ![400, 8]⟩
abbrev S8 : Shape := ⟨1, ![8]⟩
abbrev S_ : Shape := ⟨0, ![]⟩
abbrev S16x512x1 : Shape := ⟨3, ![16, 512, 1]⟩
abbrev S16x512x512 : Shape := ⟨3, ![16, 512, 512]⟩
abbrev S16x512x400 : Shape := ⟨3, ![16, 512, 400]⟩
abbrev S1x1x400 : Shape := ⟨3, ![1, 1, 400]⟩
abbrev S32 : Shape := ⟨1, ![32]⟩
abbrev S32x1 : Shape := ⟨2, ![32, 1]⟩
abbrev S32x400 : Shape := ⟨2, ![32, 400]⟩
abbrev S16x1x512x400 : Shape := ⟨4, ![16, 1, 512, 400]⟩
abbrev S1x32x1x400 : Shape := ⟨4, ![1, 32, 1, 400]⟩
abbrev S16x32x512x400 : Shape := ⟨4, ![16, 32, 512, 400]⟩
abbrev S16x32x512x8 : Shape := ⟨4, ![16, 32, 512, 8]⟩
abbrev S1x1x1x8 : Shape := ⟨4, ![1, 1, 1, 8]⟩
abbrev S16x32x8 : Shape := ⟨3, ![16, 32, 8]⟩
abbrev S16x32x1x8 : Shape := ⟨4, ![16, 32, 1, 8]⟩
abbrev S16x32x512 : Shape := ⟨3, ![16, 32, 512]⟩

abbrev nBuf : Space → Nat
  | .hbm => 58
  | .vmem => 0
  | .smem => 0
  | _ => 0

abbrev bufTy : (tb : Table) → Fin (tcTables nBuf tb) → BufTy
  | .hbm, ⟨0, _⟩ => ⟨S16x512, .i32⟩
  | .hbm, ⟨1, _⟩ => ⟨S1x32, .i32⟩
  | .hbm, ⟨2, _⟩ => ⟨S20001x512, .f32⟩
  | .hbm, ⟨3, _⟩ => ⟨S1000x400, .f32⟩
  | .hbm, ⟨4, _⟩ => ⟨S512x400, .f32⟩
  | .hbm, ⟨5, _⟩ => ⟨S400, .f32⟩
  | .hbm, ⟨6, _⟩ => ⟨S400x8, .f32⟩
  | .hbm, ⟨7, _⟩ => ⟨S8, .f32⟩
  | .hbm, ⟨8, _⟩ => ⟨S_, .i32⟩
  | .hbm, ⟨9, _⟩ => ⟨S16x512, .i32⟩
  | .hbm, ⟨10, _⟩ => ⟨S16x512, .i1⟩
  | .hbm, ⟨11, _⟩ => ⟨S_, .i32⟩
  | .hbm, ⟨12, _⟩ => ⟨S16x512, .i32⟩
  | .hbm, ⟨13, _⟩ => ⟨S16x512, .i32⟩
  | .hbm, ⟨14, _⟩ => ⟨S16x512, .i32⟩
  | .hbm, ⟨15, _⟩ => ⟨S16x512x1, .i32⟩
  | .hbm, ⟨16, _⟩ => ⟨S16x512x512, .f32⟩
  | .hbm, ⟨17, _⟩ => ⟨S16x512x400, .f32⟩
  | .hbm, ⟨18, _⟩ => ⟨S1x1x400, .f32⟩
  | .hbm, ⟨19, _⟩ => ⟨S16x512x400, .f32⟩
  | .hbm, ⟨20, _⟩ => ⟨S16x512x400, .f32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S32x1, .i32⟩
  | .hbm, ⟨30, _⟩ => ⟨S32x400, .f32⟩
  | .hbm, ⟨31, _⟩ => ⟨S16x1x512x400, .f32⟩
  | .hbm, ⟨32, _⟩ => ⟨S1x32x1x400, .f32⟩
  | .hbm, ⟨33, _⟩ => ⟨S16x32x512x400, .f32⟩
  | .hbm, ⟨34, _⟩ => ⟨S16x32x512x400, .f32⟩
  | .hbm, ⟨35, _⟩ => ⟨S16x32x512x400, .f32⟩
  | .hbm, ⟨36, _⟩ => ⟨S16x32x512x400, .f32⟩
  | .hbm, ⟨37, _⟩ => ⟨S16x32x512x8, .f32⟩
  | .hbm, ⟨38, _⟩ => ⟨S1x1x1x8, .f32⟩
  | .hbm, ⟨39, _⟩ => ⟨S16x32x512x8, .f32⟩
  | .hbm, ⟨40, _⟩ => ⟨S16x32x512x8, .f32⟩
  | .hbm, ⟨41, _⟩ => ⟨S_, .f32⟩
  | .hbm, ⟨42, _⟩ => ⟨S16x32x8, .f32⟩
  | .hbm, ⟨43, _⟩ => ⟨S_, .f32⟩
  | .hbm, ⟨44, _⟩ => ⟨S16x32x8, .f32⟩
  | .hbm, ⟨45, _⟩ => ⟨S16x32x8, .f32⟩
  | .hbm, ⟨46, _⟩ => ⟨S16x32x1x8, .f32⟩
  | .hbm, ⟨47, _⟩ => ⟨S16x32x512x8, .f32⟩
  | .hbm, ⟨48, _⟩ => ⟨S16x32x512x8, .f32⟩
  | .hbm, ⟨49, _⟩ => ⟨S16x32x512x8, .f32⟩
  | .hbm, ⟨50, _⟩ => ⟨S_, .f32⟩
  | .hbm, ⟨51, _⟩ => ⟨S16x32x8, .f32⟩
  | .hbm, ⟨52, _⟩ => ⟨S16x32x1x8, .f32⟩
  | .hbm, ⟨53, _⟩ => ⟨S16x32x512x8, .f32⟩
  | .hbm, ⟨54, _⟩ => ⟨S16x32x512x8, .f32⟩
  | .hbm, ⟨55, _⟩ => ⟨S_, .f32⟩
  | .hbm, ⟨56, _⟩ => ⟨S16x32x512, .f32⟩
  | .hbm, ⟨57, _⟩ => ⟨S16x32x512, .f32⟩
  | _, _ => ⟨S16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S400_S1x1x400_2 : S400.BroadcastsInDim S1x1x400 (![2] : Fin 1 → Fin S1x1x400.rank)
  bcast_S1x1x400_S16x512x400_0_1_2 : S1x1x400.BroadcastsInDim S16x512x400 (![0, 1, 2] : Fin 3 → Fin S16x512x400.rank)
  shapeCasts_S1x32_S32 : S1x32.ShapeCasts S32
  bcast_S_S32 : S_.BroadcastsInDim S32 (![] : Fin 0 → Fin S32.rank)
  bcast_S32_S32x1_0 : S32.BroadcastsInDim S32x1 (![0] : Fin 1 → Fin S32x1.rank)
  bcast_S16x512x400_S16x1x512x400_0_2_3 : S16x512x400.BroadcastsInDim S16x1x512x400 (![0, 2, 3] : Fin 3 → Fin S16x1x512x400.rank)
  bcast_S32x400_S1x32x1x400_1_3 : S32x400.BroadcastsInDim S1x32x1x400 (![1, 3] : Fin 2 → Fin S1x32x1x400.rank)
  bcast_S16x1x512x400_S16x32x512x400_0_1_2_3 : S16x1x512x400.BroadcastsInDim S16x32x512x400 (![0, 1, 2, 3] : Fin 4 → Fin S16x32x512x400.rank)
  bcast_S1x32x1x400_S16x32x512x400_0_1_2_3 : S1x32x1x400.BroadcastsInDim S16x32x512x400 (![0, 1, 2, 3] : Fin 4 → Fin S16x32x512x400.rank)
  bcast_S8_S1x1x1x8_3 : S8.BroadcastsInDim S1x1x1x8 (![3] : Fin 1 → Fin S1x1x1x8.rank)
  bcast_S1x1x1x8_S16x32x512x8_0_1_2_3 : S1x1x1x8.BroadcastsInDim S16x32x512x8 (![0, 1, 2, 3] : Fin 4 → Fin S16x32x512x8.rank)
  reducesTo_S16x32x512x8_S16x32x8_d2 : S16x32x512x8.ReducesTo [2] S16x32x8
  h_S_ : 0 < S_.numel
  bcast_S_S16x32x8 : S_.BroadcastsInDim S16x32x8 (![] : Fin 0 → Fin S16x32x8.rank)
  bcast_S16x32x8_S16x32x1x8_0_1_3 : S16x32x8.BroadcastsInDim S16x32x1x8 (![0, 1, 3] : Fin 3 → Fin S16x32x1x8.rank)
  bcast_S16x32x1x8_S16x32x512x8_0_1_2_3 : S16x32x1x8.BroadcastsInDim S16x32x512x8 (![0, 1, 2, 3] : Fin 4 → Fin S16x32x512x8.rank)
  reducesTo_S16x32x512x8_S16x32x512_d3 : S16x32x512x8.ReducesTo [3] S16x32x512
  gather_S20001x512_S16x512x1_S16x512x512_2_0_n_n_0_2_1512_wf : GatherDims.WF S20001x512 S16x512x1 S16x512x512 [2] [0] [] [0] [] 2 ![1, 512]
  dot_S16x512x512_S512x400_S16x512x400_2_0_01_1_n_n_wf : DotDims.WF S16x512x512 S512x400 S16x512x400 [2] [0] [0, 1] [1] [] []
  gather_S1000x400_S32x1_S32x400_1_0_n_n_0_1_1400_wf : GatherDims.WF S1000x400 S32x1 S32x400 [1] [0] [] [0] [] 1 ![1, 400]
  dot_S16x32x512x400_S400x8_S16x32x512x8_3_0_012_1_n_n_wf : DotDims.WF S16x32x512x400 S400x8 S16x32x512x8 [3] [0] [0, 1, 2] [1] [] []
  dot_S16x32x512_S16x512x512_S16x32x512_2_1_1_2_0_0_wf : DotDims.WF S16x32x512 S16x512x512 S16x32x512 [2] [1] [1] [2] [0] [0]

variable [Facts₀]

def gather_S20001x512_S16x512x1_S16x512x512_2_0_n_n_0_2_1512 : GatherDims S20001x512 S16x512x1 S16x512x512 where
  offsetDims := [2]
  collapsedSliceDims := [0]
  operandBatchingDims := []
  startIndicesBatchingDims := []
  startIndexMap := [0]
  indexVectorDim := 2
  sliceSizes := ![1, 512]
  wf := gather_S20001x512_S16x512x1_S16x512x512_2_0_n_n_0_2_1512_wf
def dot_S16x512x512_S512x400_S16x512x400_2_0_01_1_n_n : DotDims S16x512x512 S512x400 S16x512x400 where
  lhsContracting := [2]
  rhsContracting := [0]
  lhsNonContracting := [0, 1]
  rhsNonContracting := [1]
  lhsBatch := []
  rhsBatch := []
  wf := dot_S16x512x512_S512x400_S16x512x400_2_0_01_1_n_n_wf
def gather_S1000x400_S32x1_S32x400_1_0_n_n_0_1_1400 : GatherDims S1000x400 S32x1 S32x400 where
  offsetDims := [1]
  collapsedSliceDims := [0]
  operandBatchingDims := []
  startIndicesBatchingDims := []
  startIndexMap := [0]
  indexVectorDim := 1
  sliceSizes := ![1, 400]
  wf := gather_S1000x400_S32x1_S32x400_1_0_n_n_0_1_1400_wf
def dot_S16x32x512x400_S400x8_S16x32x512x8_3_0_012_1_n_n : DotDims S16x32x512x400 S400x8 S16x32x512x8 where
  lhsContracting := [3]
  rhsContracting := [0]
  lhsNonContracting := [0, 1, 2]
  rhsNonContracting := [1]
  lhsBatch := []
  rhsBatch := []
  wf := dot_S16x32x512x400_S400x8_S16x32x512x8_3_0_012_1_n_n_wf
def dot_S16x32x512_S16x512x512_S16x32x512_2_1_1_2_0_0 : DotDims S16x32x512 S16x512x512 S16x32x512 where
  lhsContracting := [2]
  rhsContracting := [1]
  lhsNonContracting := [1]
  rhsNonContracting := [2]
  lhsBatch := [0]
  rhsBatch := [0]
  wf := dot_S16x32x512_S16x512x512_S16x32x512_2_1_1_2_0_0_wf

class Facts : Prop extends Facts₀ where

variable [Facts]
-- ==== Proof.Pieces.lean ====
/-
  What one batch member's output block holds after the kernel body: the body's loop makes four trips, trip `k` loading
  rows 8k … 8k+7 of the context block and storing the body's one payload of them into rows 8k … 8k+7 of the output block.
  So the block at row 8k + q is the payload of chunk k at row q.
-/
import proofs.«414130_j42460046688738_3_alg».proof.Proof.Gen.KernelIdeal.Frame
import Idealize.ShloMosaic.Lib.ValueIdx
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.ValueIdx

variable {F : FTy → Type} [FloatOps F]

/-- The loop makes at most four trips. -/
theorem trip_lt (k : Fin k0_t1_loop.trips) : k.val < 4 := Nat.lt_of_lt_of_le k.isLt k0_t1_abs.2.1

/-- Row `r` of chunk `k` is row `8k + r` of the 32 pathways. -/
def chunkRow (k : Fin k0_t1_loop.trips) (r : Fin 8) : Fin 32 := ⟨8 * k.val + r.val, by have := trip_lt k; omega⟩

/-- Chunk `k` of the context block: its rows 8k … 8k+7. -/
def chunk (x3 : Vec F S32x400 .f32) (k : Fin k0_t1_loop.trips) : Vec F S8x400 .f32 :=
  fun j => x3 (ix2 (chunkRow k ⟨(j 0).val, (j 0).isLt⟩) (⟨(j 1).val, (j 1).isLt⟩ : Fin 400))

/-! ## The zero offsets, however spelt -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## One trip's piece -/

/-- Trip `k` writes one piece: at rows 8k … 8k+7 of the output block, the payload of the context rows it loads. -/
theorem tripL_eq (𝒱 : Variants) (c : Dev nD) (bd : Option 𝒱.V) (i : grid0.Coords) (arg1 : Memref sig .tc .vmem S1x512x512 .bf16) (harg1 : arg1.IsWhole) (arg2 : Memref sig .tc .vmem S512x400 .bf16) (harg2 : arg2.IsWhole) (arg3 : Memref sig .tc .vmem S400 .f32) (harg3 : arg3.IsWhole) (arg4 : Memref sig .tc .vmem S32x400 .f32) (harg4 : arg4.IsWhole) (arg5 : Memref sig .tc .vmem S8x400 .bf16) (harg5 : arg5.IsWhole) (arg6 : Memref sig .tc .vmem S8 .f32) (harg6 : arg6.IsWhole) (arg7 : Memref sig .tc .vmem S1x32x512 .f32) (harg7 : arg7.IsWhole) (v0 : Vec F S1x512x512 .bf16) (v2 : Vec F S512x400 .bf16) (v4 : Vec F S400 .f32) (v5 : Vec F S8x400 .bf16) (v7 : Vec F S8 .f32) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 v0 v2 v4 v5 v7 X_arg4 k
      = [⟨Rect.unit (s := S1x32x512) (k0_off2 k) S1x8x512.size (k0_off2_inb k),
          k0_pay1 v0 v2 v4 v5 v7 (View.readAt (Elt F) arg4.view (Rect.unit (s := S32x400) (k0_off1 k) S8x400.size (k0_off1_inb k)).toLoadRect X_arg4)⟩] := by
  unfold tripL_k0_t1 trip_k0_t1
  rfl

/-- What trip `k` loads of a whole context block holding `x3` is chunk `k` of `x3`. -/
theorem load_chunk (arg4 : Memref sig .tc .vmem S32x400 .f32) (harg4 : arg4.IsWhole) (x3 : Vec F S32x400 .f32) (k : Fin k0_t1_loop.trips) :
    View.readAt (Elt F) arg4.view (Rect.unit (s := S32x400) (k0_off1 k) S8x400.size (k0_off1_inb k)).toLoadRect (harg4.unread x3) = chunk x3 k := by
  rw [View.readAt_eq_ld, harg4.read_unread]
  refine funext fun (j : S8x400.Idx) => ?_
  show x3 _ = x3 _
  congr 1
  funext a
  apply Fin.ext
  rw [LoadRect.idx_apply]
  show k0_off1 k a + 1 * (j a).val = _
  rw [congrFun (k0_off1_eq k) a]
  fin_cases a
  · simp [chunkRow]
  · simp

/-! ## Where row 8k + q sits among the trips' rectangles -/

/-- Row `8k + q` of the output block is trip `k`'s rectangle at its local index `(0, q, d)`. -/
theorem emb_trip (k : Fin k0_t1_loop.trips) (q : Fin 8) (d : Fin 512) :
    (Rect.unit (s := S1x32x512) (k0_off2 k) S1x8x512.size (k0_off2_inb k)).emb (ix3 (0 : Fin 1) q d)
      = ix3 (0 : Fin 1) (chunkRow k q) d := by
  funext a
  apply Fin.ext
  rw [Rect.emb_apply]
  show k0_off2 k a + 1 * ((ix3 (0 : Fin 1) q d : S1x8x512.Idx) a).val = _
  rw [congrFun (k0_off2_eq k) a]
  fin_cases a
  · simp
  · simp [chunkRow]
  · simp

/-- A row of an earlier chunk is outside a later trip's rectangle. -/
theorem not_mem_trip (n k : Fin k0_t1_loop.trips) (h : k.val < n.val) (q : Fin 8) (d : Fin 512) :
    ix3 (0 : Fin 1) (chunkRow k q) d ∉ (Rect.unit (s := S1x32x512) (k0_off2 n) S1x8x512.size (k0_off2_inb n)).set := by
  intro hm
  have h1 := (Rect.mem_set_unit.mp hm) (1 : Fin 3)
  rw [congrFun (k0_off2_eq n) (1 : Fin 3)] at h1
  simp [chunkRow] at h1
  omega

/-! ## The trips, one after another -/

/-- After the first `n` trips, a row of a chunk `k < n` holds chunk `k`'s payload: the last trip's piece gives it when
    `k` is the last trip, and leaves it alone otherwise. -/
theorem canon_pb (c : Dev nD) (i : grid0.Coords) (arg1 : Memref sig .tc .vmem S1x512x512 .bf16) (harg1 : arg1.IsWhole) (arg2 : Memref sig .tc .vmem S512x400 .bf16) (harg2 : arg2.IsWhole) (arg3 : Memref sig .tc .vmem S400 .f32) (harg3 : arg3.IsWhole) (arg4 : Memref sig .tc .vmem S32x400 .f32) (harg4 : arg4.IsWhole) (arg5 : Memref sig .tc .vmem S8x400 .bf16) (harg5 : arg5.IsWhole) (arg6 : Memref sig .tc .vmem S8 .f32) (harg6 : arg6.IsWhole) (arg7 : Memref sig .tc .vmem S1x32x512 .f32) (harg7 : arg7.IsWhole)
    (x0 : Vec F S1x512x512 .bf16) (x1 : Vec F S512x400 .bf16) (x2 : Vec F S400 .f32) (x3 : Vec F S32x400 .f32) (x4 : Vec F S8x400 .bf16) (x5 : Vec F S8 .f32) (q : Fin 8) (d : Fin 512) :
    ∀ (n : ℕ), n ≤ k0_t1_loop.trips → ∀ k : Fin k0_t1_loop.trips, k.val < n →
      View.canon (pb_k0_t1 (F := F) Variants.none c none i arg1 harg1 arg2 harg2 arg3 harg3 arg4 harg4 arg5 harg5 arg6 harg6 arg7 harg7 x0 x1 x2 x4 x5 (harg4.unread x3) n) (ix3 (0 : Fin 1) (chunkRow k q) d)
        = k0_pay1 (F := F) x0 x1 x2 x4 x5 (chunk x3 k) (ix3 (0 : Fin 1) q d) := by
  intro n
  induction n with
  | zero => intro _ k hk; exact absurd hk (Nat.not_lt_zero _)
  | succ n ih =>
    intro hn k hk
    have e : pb_k0_t1 (F := F) Variants.none c none i arg1 harg1 arg2 harg2 arg3 harg3 arg4 harg4 arg5 harg5 arg6 harg6 arg7 harg7 x0 x1 x2 x4 x5 (harg4.unread x3) (n + 1)
        = tripL_k0_t1 (F := F) Variants.none c none i arg1 harg1 arg2 harg2 arg3 harg3 arg4 harg4 arg5 harg5 arg6 harg6 arg7 harg7 x0 x1 x2 x4 x5 (harg4.unread x3) ⟨n, hn⟩ ++ pb_k0_t1 (F := F) Variants.none c none i arg1 harg1 arg2 harg2 arg3 harg3 arg4 harg4 arg5 harg5 arg6 harg6 arg7 harg7 x0 x1 x2 x4 x5 (harg4.unread x3) n :=
      pb_k0_t1_succ (F := F) Variants.none c none i arg1 harg1 arg2 harg2 arg3 harg3 arg4 harg4 arg5 harg5 arg6 harg6 arg7 harg7 x0 x1 x2 x4 x5 (harg4.unread x3) ⟨n, hn⟩
    rw [e, tripL_eq, load_chunk, List.singleton_append]
    rcases Nat.lt_succ_iff_lt_or_eq.mp hk with hlt | heq
    · have hnm := not_mem_trip ⟨n, hn⟩ k hlt q d
      exact (View.canon_cons_of_not_mem (⟨_, _⟩ : View.Piece (Elt F) S1x32x512 .f32) _ hnm).trans
        (ih (Nat.le_of_succ_le hn) k hlt)
    · obtain rfl : k = ⟨n, hn⟩ := Fin.ext heq
      rw [← emb_trip]
      exact View.canon_cons_emb _ _ _ _

/-! ## The run's pieces are the four trips' -/

/-- The body's run leaves the loop's pieces, the loop's trips reading the blocks the whole loads before it read. -/
theorem run_pieces (c : Dev nD) (i : grid0.Coords) (arg1 : Memref sig .tc .vmem S1x512x512 .bf16) (harg1 : arg1.IsWhole) (arg2 : Memref sig .tc .vmem S512x400 .bf16) (harg2 : arg2.IsWhole) (arg3 : Memref sig .tc .vmem S400 .f32) (harg3 : arg3.IsWhole) (arg4 : Memref sig .tc .vmem S32x400 .f32) (harg4 : arg4.IsWhole) (arg5 : Memref sig .tc .vmem S8x400 .bf16) (harg5 : arg5.IsWhole) (arg6 : Memref sig .tc .vmem S8 .f32) (harg6 : arg6.IsWhole) (arg7 : Memref sig .tc .vmem S1x32x512 .f32) (harg7 : arg7.IsWhole)
    (x0 : Vec F S1x512x512 .bf16) (x1 : Vec F S512x400 .bf16) (x2 : Vec F S400 .f32) (x3 : Vec F S32x400 .f32) (x4 : Vec F S8x400 .bf16) (x5 : Vec F S8 .f32) :
    (kernelRun0_A (F := F) c i arg1 harg1 arg2 harg2 arg3 harg3 arg4 harg4 arg5 harg5 arg6 harg6 arg7 harg7 x0 x1 x2 x3 x4 x5).1
      = pb_k0_t1 (F := F) Variants.none c none i arg1 harg1 arg2 harg2 arg3 harg3 arg4 harg4 arg5 harg5 arg6 harg6 arg7 harg7 x0 x1 x2 x4 x5 (harg4.unread x3) k0_t1_loop.trips := by
  unfold kernelRun0_A
  dsimp only
  simp only [View.readAt_eq_ld, harg1.read_unread, harg2.read_unread, harg3.read_unread, harg5.read_unread, harg6.read_unread,
    View.ld_unit_zero (S := S1x512x512) hz3, View.ld_unit_zero (S := S512x400) hz2, View.ld_unit_zero (S := S400) hz1,
    View.ld_unit_zero (S := S8x400) hz2, View.ld_unit_zero (S := S8) hz1]

/-- The output block at row `8k + q` is the body's payload of chunk `k` at row `q`. -/
theorem out_block_apply (c : Dev nD) (i : grid0.Coords) (arg1 : Memref sig .tc .vmem S1x512x512 .bf16) (harg1 : arg1.IsWhole) (arg2 : Memref sig .tc .vmem S512x400 .bf16) (harg2 : arg2.IsWhole) (arg3 : Memref sig .tc .vmem S400 .f32) (harg3 : arg3.IsWhole) (arg4 : Memref sig .tc .vmem S32x400 .f32) (harg4 : arg4.IsWhole) (arg5 : Memref sig .tc .vmem S8x400 .bf16) (harg5 : arg5.IsWhole) (arg6 : Memref sig .tc .vmem S8 .f32) (harg6 : arg6.IsWhole) (arg7 : Memref sig .tc .vmem S1x32x512 .f32) (harg7 : arg7.IsWhole)
    (x0 : Vec F S1x512x512 .bf16) (x1 : Vec F S512x400 .bf16) (x2 : Vec F S400 .f32) (x3 : Vec F S32x400 .f32) (x4 : Vec F S8x400 .bf16) (x5 : Vec F S8 .f32)
    (k : Fin k0_t1_loop.trips) (q : Fin 8) (d : Fin 512) :
    out0_A_6 (F := F) c i arg1 harg1 arg2 harg2 arg3 harg3 arg4 harg4 arg5 harg5 arg6 harg6 arg7 harg7 x0 x1 x2 x3 x4 x5 (ix3 (0 : Fin 1) (chunkRow k q) d)
      = k0_pay1 (F := F) x0 x1 x2 x4 x5 (chunk x3 k) (ix3 (0 : Fin 1) q d) := by
  unfold out0_A_6
  rw [View.read_writes_eq_canon _ _ _ (cover0_A_6 c i arg1 harg1 arg2 harg2 arg3 harg3 arg4 harg4 arg5 harg5 arg6 harg6 arg7 harg7 x0 x1 x2 x3 x4 x5), run_pieces]
  exact canon_pb c i arg1 harg1 arg2 harg2 arg3 harg3 arg4 harg4 arg5 harg5 arg6 harg6 arg7 harg7 x0 x1 x2 x3 x4 x5 q d k0_t1_loop.trips (Nat.le_refl _) k k.isLt

end Cert.KernelIdeal.Pieces

end
-- ==== Proof.KernelValue.lean ====
/-
  The kernel's result array, read at an index. The grid is the 16 batch members; point `t` stages block `t` of the gene
  embeddings ([1, 512, 512] of [16, 512, 512]) and the whole of every other input, and writes back block `t`
  ([1, 32, 512]) of the result. No two points write one index and every index is written, so the result at (t, 8k + q, d)
  is what point `t`'s body left at row 8k + q: its payload of context rows 8k … 8k+7, at row q.
-/
import proofs.«414130_j42460046688738_3_alg».proof.Proof.Gen.KernelIdeal.Value
import proofs.«414130_j42460046688738_3_alg».proof.Proof.Pieces
import Idealize.ShloMosaic.Lib.ValueIdx

noncomputable section

namespace Cert.KernelIdeal.KValue

open Cert.KernelIdeal Cert.KernelIdeal.Gen Cert.KernelIdeal.Value Cert.KernelIdeal.Pieces
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The batch member a grid point works on. -/
def member (t : Fin cfg0.N) : Fin 16 := ⟨t.val, by have h : t.val < grid0.N := t.isLt; rw [N_0] at h; exact h⟩

/-- The printed index maps, decided over the 16 points: the gene-embedding window and the result window move with the
    point along axis 0; every other window stays at block 0. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-! ## The input blocks, read at an index -/

theorem blk0_apply (c : Dev nD) (t : Fin cfg0.N) (g d : Fin 512) :
    iblk m c 0 t (ix3 (0 : Fin 1) g d) = V m c main_v1 (ix3 (member t) g d) := by
  show V m c main_v1 (((cfg0.win 0).blk t).view.emb (ix3 (0 : Fin 1) g d)) = V m c main_v1 (ix3 (member t) g d)
  obtain ⟨e0, e1, e2, -⟩ := idx_facts t
  refine congrArg (V m c main_v1) (funext fun a => Fin.ext ?_)
  match a with
  | ⟨0, _⟩ => show win0_0.index t (0 : Fin 3) * 1 + 1 * 0 = t.val; omega
  | ⟨1, _⟩ => show win0_0.index t (1 : Fin 3) * 512 + 1 * g.val = g.val; omega
  | ⟨2, _⟩ => show win0_0.index t (2 : Fin 3) * 512 + 1 * d.val = d.val; omega

theorem blk1_apply (c : Dev nD) (t : Fin cfg0.N) (d : Fin 512) (a : Fin 400) :
    iblk m c 1 t (ix2 d a) = V m c main_v4 (ix2 d a) := by
  show V m c main_v4 (((cfg0.win 1).blk t).view.emb (ix2 d a)) = V m c main_v4 (ix2 d a)
  obtain ⟨-, -, -, -, -, -, e0, e1, -⟩ := idx_facts t
  refine congrArg (V m c main_v4) (funext fun x => Fin.ext ?_)
  match x with
  | ⟨0, _⟩ => show win0_1.index t (0 : Fin 2) * 512 + 1 * d.val = d.val; omega
  | ⟨1, _⟩ => show win0_1.index t (1 : Fin 2) * 400 + 1 * a.val = a.val; omega

theorem blk2_apply (c : Dev nD) (t : Fin cfg0.N) (a : Fin 400) :
    iblk m c 2 t (ix1 a) = V m c main_arg5 (ix1 a) := by
  show V m c main_arg5 (((cfg0.win 2).blk t).view.emb (ix1 a)) = V m c main_arg5 (ix1 a)
  obtain ⟨-, -, -, -, -, -, -, -, e0, -⟩ := idx_facts t
  refine congrArg (V m c main_arg5) (funext fun x => Fin.ext ?_)
  match x with
  | ⟨0, _⟩ => show win0_2.index t (0 : Fin 1) * 400 + 1 * a.val = a.val; omega

theorem blk3_apply (c : Dev nD) (t : Fin cfg0.N) (p : Fin 32) (a : Fin 400) :
    iblk m c 3 t (ix2 p a) = V m c main_v3 (ix2 p a) := by
  show V m c main_v3 (((cfg0.win 3).blk t).view.emb (ix2 p a)) = V m c main_v3 (ix2 p a)
  obtain ⟨-, -, -, -, -, -, -, -, -, e0, e1, -⟩ := idx_facts t
  refine congrArg (V m c main_v3) (funext fun x => Fin.ext ?_)
  match x with
  | ⟨0, _⟩ => show win0_3.index t (0 : Fin 2) * 32 + 1 * p.val = p.val; omega
  | ⟨1, _⟩ => show win0_3.index t (1 : Fin 2) * 400 + 1 * a.val = a.val; omega

theorem blk4_apply (c : Dev nD) (t : Fin cfg0.N) (h : Fin 8) (a : Fin 400) :
    iblk m c 4 t (ix2 h a) = V m c main_v6 (ix2 h a) := by
  show V m c main_v6 (((cfg0.win 4).blk t).view.emb (ix2 h a)) = V m c main_v6 (ix2 h a)
  obtain ⟨-, -, -, -, -, -, -, -, -, -, -, e0, e1, -⟩ := idx_facts t
  refine congrArg (V m c main_v6) (funext fun x => Fin.ext ?_)
  match x with
  | ⟨0, _⟩ => show win0_4.index t (0 : Fin 2) * 8 + 1 * h.val = h.val; omega
  | ⟨1, _⟩ => show win0_4.index t (1 : Fin 2) * 400 + 1 * a.val = a.val; omega

theorem blk5_apply (c : Dev nD) (t : Fin cfg0.N) (h : Fin 8) :
    iblk m c 5 t (ix1 h) = V m c main_arg7 (ix1 h) := by
  show V m c main_arg7 (((cfg0.win 5).blk t).view.emb (ix1 h)) = V m c main_arg7 (ix1 h)
  obtain ⟨-, -, -, -, -, -, -, -, -, -, -, -, -, e0⟩ := idx_facts t
  refine congrArg (V m c main_arg7) (funext fun x => Fin.ext ?_)
  match x with
  | ⟨0, _⟩ => show win0_5.index t (0 : Fin 1) * 8 + 1 * h.val = h.val; omega

/-! ## The result array -/

/-- The result at (t, 8k + q, d) is point `t`'s payload of context chunk `k`, at row `q`. -/
theorem arr_apply (c : Dev nD) (t : Fin cfg0.N) (k : Fin k0_t1_loop.trips) (q : Fin 8) (d : Fin 512) :
    (dats m 0 c).arrAt 6 cfg0.N (ix3 (member t) (chunkRow k q) d)
      = k0_pay1 (F := F) (iblk m c 0 t) (iblk m c 1 t) (iblk m c 2 t) (iblk m c 4 t) (iblk m c 5 t) (chunk (iblk m c 3 t) k)
          (ix3 (0 : Fin 1) q d) := by
  have hb := congrFun (blocks6 m c t (flush0_6 t)) (ix3 (0 : Fin 1) (chunkRow k q) d)
  rw [flushed6_A] at hb
  have he : ((cfg0.win 6).blk t).view.emb (ix3 (0 : Fin 1) (chunkRow k q) d) = ix3 (member t) (chunkRow k q) d := by
    obtain ⟨-, -, -, e0, e1, e2, -⟩ := idx_facts t
    funext a; apply Fin.ext
    match a with
    | ⟨0, _⟩ => show win0_6.index t (0 : Fin 3) * 1 + 1 * 0 = t.val; omega
    | ⟨1, _⟩ => show win0_6.index t (1 : Fin 3) * 32 + 1 * (chunkRow k q).val = (chunkRow k q).val; omega
    | ⟨2, _⟩ => show win0_6.index t (2 : Fin 3) * 512 + 1 * d.val = d.val; omega
  rw [← he]
  refine Eq.trans hb ?_
  exact out_block_apply c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (iblk m c 0 t) (iblk m c 1 t) (iblk m c 2 t) (iblk m c 3 t) (iblk m c 4 t) (iblk m c 5 t) k q d

end Cert.KernelIdeal.KValue

end
-- ==== Proof.IndexRange.lean ====
/-
  Row indices in NumPy's range, after the negative ones are wrapped.

  Both programs turn a row index `w` into `w' = (w < 0 ? w + n : w)` before they gather row `w'` of a table of `n` rows.
  If `−n ≤ w ≤ n − 1` (as signed 32-bit integers), then `0 ≤ w' ≤ n − 1`: for `w < 0` the sum `w + n` lies in
  `[0, n − 1]` and does not wrap around, and for `w ≥ 0` nothing changes. The kernel's `take` tests exactly
  `0 ≤ w' ≤ n − 1` and replaces the rows that fail the test; so on that range its test always passes.

  Also here: a conjunction (`and`-reduction from 1) of one-bit words that are all 1 is 1 — the converse of reading such a
  reduction back.
-/
import Idealize.ShloMosaic.PureOps
import Idealize.ShloMosaic.PureOps.Reduce
import Idealize.ShloMosaic.Lib.StableHlo.Predicate

namespace Cert.IndexRange

open Idealize.ShloMosaic

/-- A signed comparison word is 1 exactly when the integers compare so. -/
theorem cmpi_sge_iff (a b : BitVec 32) : IntOp.cmpi .sge a b = 1#1 ↔ b.toInt ≤ a.toInt := by
  simp only [IntOp.cmpi, StableHlo.Predicate.ofBool_eq_one_iff, BitVec.sle_eq_decide, decide_eq_true_eq]

theorem cmpi_sle_iff (a b : BitVec 32) : IntOp.cmpi .sle a b = 1#1 ↔ a.toInt ≤ b.toInt := by
  simp only [IntOp.cmpi, StableHlo.Predicate.ofBool_eq_one_iff, BitVec.sle_eq_decide, decide_eq_true_eq]

theorem cmpi_slt_iff (a b : BitVec 32) : IntOp.cmpi .slt a b = 1#1 ↔ a.toInt < b.toInt := by
  simp only [IntOp.cmpi, StableHlo.Predicate.ofBool_eq_one_iff, BitVec.slt_eq_decide, decide_eq_true_eq]

/-- The wrapped index: `w + n` for a negative `w`, else `w`. -/
def wrap (n w : BitVec 32) : BitVec 32 := Scalar.select (IntOp.cmpi .slt w 0#32) (IntOp.addi w n) w

/-- For `0 < n < 2³¹` and `−n ≤ w ≤ n − 1` the wrapped index lies in `[0, n − 1]`. -/
theorem wrap_range (n w : BitVec 32) (hn0 : 0 < n.toInt) (lo : -n.toInt ≤ w.toInt) (hi : w.toInt ≤ n.toInt - 1) :
    0 ≤ (wrap n w).toInt ∧ (wrap n w).toInt ≤ n.toInt - 1 := by
  have hn1 : n.toInt < 2 ^ 31 := by have := BitVec.toInt_lt (x := n); omega
  have c0 : (0#32 : BitVec 32).toInt = 0 := by decide
  unfold wrap Scalar.select
  by_cases hw : w.toInt < 0
  · rw [if_pos (by rw [show (1 : BitVec 1) = 1#1 from rfl, cmpi_slt_iff, c0]; exact hw)]
    show 0 ≤ (w + n).toInt ∧ (w + n).toInt ≤ n.toInt - 1
    rw [BitVec.toInt_add, Int.bmod_eq_of_le_mul_two (by omega) (by omega)]
    omega
  · rw [if_neg (by rw [show (1 : BitVec 1) = 1#1 from rfl, cmpi_slt_iff, c0]; exact hw)]
    omega

/-- Gene rows (`n = 20001`): under the stated range the kernel's two tests on the wrapped index pass. -/
theorem wrap_gene (w : BitVec 32) (lo : IntOp.cmpi .sge w 4294947295#32 = 1#1) (hi : IntOp.cmpi .sle w 20000#32 = 1#1) :
    IntOp.cmpi .sge (wrap 20001#32 w) 0#32 = 1#1 ∧ IntOp.cmpi .sle (wrap 20001#32 w) 20000#32 = 1#1 := by
  rw [cmpi_sge_iff] at lo; rw [cmpi_sle_iff] at hi
  have cn : (20001#32 : BitVec 32).toInt = 20001 := by decide
  have cl : (4294947295#32 : BitVec 32).toInt = -20001 := by decide
  have ch : (20000#32 : BitVec 32).toInt = 20000 := by decide
  have c0 : (0#32 : BitVec 32).toInt = 0 := by decide
  have := wrap_range 20001#32 w (by rw [cn]; omega) (by rw [cn]; omega) (by rw [cn]; omega)
  rw [cn] at this
  rw [cmpi_sge_iff, cmpi_sle_iff, c0, ch]; omega

/-- Pathway rows (`n = 1000`), likewise. -/
theorem wrap_ptw (w : BitVec 32) (lo : IntOp.cmpi .sge w 4294966296#32 = 1#1) (hi : IntOp.cmpi .sle w 999#32 = 1#1) :
    IntOp.cmpi .sge (wrap 1000#32 w) 0#32 = 1#1 ∧ IntOp.cmpi .sle (wrap 1000#32 w) 999#32 = 1#1 := by
  rw [cmpi_sge_iff] at lo; rw [cmpi_sle_iff] at hi
  have cn : (1000#32 : BitVec 32).toInt = 1000 := by decide
  have cl : (4294966296#32 : BitVec 32).toInt = -1000 := by decide
  have ch : (999#32 : BitVec 32).toInt = 999 := by decide
  have c0 : (0#32 : BitVec 32).toInt = 0 := by decide
  have := wrap_range 1000#32 w (by rw [cn]; omega) (by rw [cn]; omega) (by rw [cn]; omega)
  rw [cn] at this
  rw [cmpi_sge_iff, cmpi_sle_iff, c0, ch]; omega

/-- A left fold by `and` from 1 over one-bit words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ (fun n hn => hl n (List.mem_cons_of_mem _ hn))
    show IntOp.andi init (f a) = 1#1
    rw [h, hl a (List.mem_cons_self ..)]; decide

/-- So a `stablehlo.reduce` by `and` from 1 of an array of 1s is 1 at every result index. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.IndexRange
-- ==== Proof.KernelHost.lean ====
/-
  What the kernel's region finds in the arrays its windows stage, as functions of the program's arguments.

  The gene embeddings and the pathway contexts are each a `take`: the row indices wrapped (negative ones shifted by the
  table's length), the rows gathered, and every row whose wrapped index fails `0 ≤ · ≤ n − 1` replaced by the word
  `0x7FC00000`. When the indices are in NumPy's range `−n ≤ · ≤ n − 1` no row fails (IndexRange), and the staged array is
  the plain gather. The projection weight is staged rounded to bf16, the head weight transposed and rounded.
-/
import proofs.«414130_j42460046688738_3_alg».proof.Proof.Gen.KernelIdeal.Frame
import proofs.«414130_j42460046688738_3_alg».proof.Proof.IndexRange
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The two takes, named -/

/-- The gene indices wrapped and laid out as a column of start indices. -/
def geneIdx (x0 : IVec S16x512 32) : IVec S16x512x1 32 :=
  broadcastInDim S16x512x1 ![0, 1] bcast_S16x512_S16x512x1_0_1
    (select (cmpi .slt x0 (broadcastInDim S16x512 ![] bcast_S_S16x512 (constantI S_ 32 0#32)))
      (addi x0 (broadcastInDim S16x512 ![] bcast_S_S16x512 (constantI S_ 32 20001#32))) x0)

/-- The range test on the wrapped gene indices, one word per (batch member, gene). -/
def geneOk (x0 : IVec S16x512 32) : IVec S16x512 1 :=
  Host.reduce IntOp.andi
    (andi (cmpi .sge (geneIdx x0) (broadcastInDim S16x512x1 ![] bcast_S_S16x512x1 (constantI S_ 32 0#32)))
      (cmpi .sle (geneIdx x0) (broadcastInDim S16x512x1 ![0, 1, 2] bcast_S1x1x1_S16x512x1_0_1_2
        (broadcastInDim S1x1x1 ![2] bcast_S1_S1x1x1_2 (constantI S1 32 20000#32)))))
    (constantI S_ 1 1#1) reducesTo_S16x512x1_S16x512_d2 h_S_

/-- The gathered gene rows. -/
def geneRows (x0 : IVec S16x512 32) (x2 : FVec F S20001x512 .f32) : FVec F S16x512x512 .f32 :=
  Host.gather gather_S20001x512_S16x512x1_S16x512x512_2_0_n_n_0_2_1512 x2 (geneIdx x0)

/-- The kernel's `take` of the gene table: the gathered rows, those that fail the test replaced. -/
def geneTake (x0 : IVec S16x512 32) (x2 : FVec F S20001x512 .f32) : FVec F S16x512x512 .f32 :=
  select (broadcastInDim S16x512x512 ![0, 1] bcast_S16x512_S16x512x512_0_1 (geneOk x0)) (geneRows x0 x2)
    (broadcastInDim S16x512x512 ![] bcast_S_S16x512x512 (constant S_ .f32 0x7FC00000#32))

/-- The pathway ids as a vector of 32. -/
def ptwFlat (x1 : IVec S1x32 32) : IVec S32 32 := shapeCast _ x1 shapeCasts_S1x32_S32

def ptwIdx (y : IVec S32 32) : IVec S32x1 32 :=
  broadcastInDim S32x1 ![0] bcast_S32_S32x1_0
    (select (cmpi .slt y (broadcastInDim S32 ![] bcast_S_S32 (constantI S_ 32 0#32)))
      (addi y (broadcastInDim S32 ![] bcast_S_S32 (constantI S_ 32 1000#32))) y)

def ptwOk (y : IVec S32 32) : IVec S32 1 :=
  Host.reduce IntOp.andi
    (andi (cmpi .sge (ptwIdx y) (broadcastInDim S32x1 ![] bcast_S_S32x1 (constantI S_ 32 0#32)))
      (cmpi .sle (ptwIdx y) (broadcastInDim S32x1 ![0, 1] bcast_S1x1_S32x1_0_1
        (broadcastInDim S1x1 ![1] bcast_S1_S1x1_1 (constantI S1 32 999#32)))))
    (constantI S_ 1 1#1) reducesTo_S32x1_S32_d1 h_S_

def ptwRows (y : IVec S32 32) (x3 : FVec F S1000x400 .f32) : FVec F S32x400 .f32 :=
  Host.gather gather_S1000x400_S32x1_S32x400_1_0_n_n_0_1_1400 x3 (ptwIdx y)

def ptwTake (y : IVec S32 32) (x3 : FVec F S1000x400 .f32) : FVec F S32x400 .f32 :=
  select (broadcastInDim S32x400 ![0] bcast_S32_S32x400_0 (ptwOk y)) (ptwRows y x3)
    (broadcastInDim S32x400 ![] bcast_S_S32x400 (constant S_ .f32 0x7FC00000#32))

/-! ## What the region finds staged -/

variable (m : (ℓ : Loc nD τ sig) → Buf (Elt F) ℓ)

set_option maxHeartbeats 2000000 in
/-- Window 0's array: the gene `take`, rounded to bf16. -/
theorem V_main_v1 (c : Dev nD) :
    V m c main_v1 = truncf .bf16 (geneTake (m ((c : Thread nD τ).loc main_arg0)) (m ((c : Thread nD τ).loc main_arg2))) bitsLt_bf16_f32 := by
  dsimp only [V]
  simp only [hostOps0, hostOps0_1, hostOps0_2, hostOps0_3, List.flatten_cons, List.flatten_nil, List.append_nil, List.cons_append, List.nil_append]
  after_results_simp
  rfl

set_option maxHeartbeats 2000000 in
/-- Window 3's array: the pathway `take`. -/
theorem V_main_v3 (c : Dev nD) :
    V m c main_v3 = ptwTake (ptwFlat (m ((c : Thread nD τ).loc main_arg1))) (m ((c : Thread nD τ).loc main_arg3)) := by
  dsimp only [V]
  simp only [hostOps0, hostOps0_1, hostOps0_2, hostOps0_3, List.flatten_cons, List.flatten_nil, List.append_nil, List.cons_append, List.nil_append]
  after_results_simp
  rfl

set_option maxHeartbeats 2000000 in
/-- Window 1's array: the projection weight rounded to bf16. -/
theorem V_main_v4 (c : Dev nD) :
    V m c main_v4 = truncf .bf16 (m ((c : Thread nD τ).loc main_arg4)) bitsLt_bf16_f32 := by
  dsimp only [V]
  simp only [hostOps0, hostOps0_1, hostOps0_2, hostOps0_3, List.flatten_cons, List.flatten_nil, List.append_nil, List.cons_append, List.nil_append]
  after_results_simp

set_option maxHeartbeats 2000000 in
/-- Window 4's array: the head weight transposed, rounded to bf16. -/
theorem V_main_v6 (c : Dev nD) :
    V m c main_v6 = truncf .bf16 (transpose S8x400 [1, 0] (m ((c : Thread nD τ).loc main_arg6)) transposes_S400x8_S8x400_1_0) bitsLt_bf16_f32 := by
  dsimp only [V]
  simp only [hostOps0, hostOps0_1, hostOps0_2, hostOps0_3, List.flatten_cons, List.flatten_nil, List.append_nil, List.cons_append, List.nil_append]
  after_results_simp

/-! ## In range, a take is its gather -/

/-- The wrapped gene index at (b, g): the word-level `wrap` of the index. -/
theorem geneIdx_apply (x0 : IVec S16x512 32) (j : S16x512x1.Idx) :
    geneIdx x0 j = Cert.IndexRange.wrap 20001#32 (x0 (ix2 ⟨(j 0).val, (j 0).isLt⟩ ⟨(j 1).val, (j 1).isLt⟩)) := by
  unfold geneIdx
  rw [broadcastInDim_apply _ bcast_S16x512_S16x512x1_0_1 _ j (ix2 ⟨(j 0).val, (j 0).isLt⟩ ⟨(j 1).val, (j 1).isLt⟩)
    (fun a => by match a with | ⟨0, _⟩ => rfl | ⟨1, _⟩ => rfl)]
  rfl

/-- With every gene index in `[−20001, 20000]` the range test passes everywhere. -/
theorem geneOk_one (x0 : IVec S16x512 32) (lo : ∀ i, IntOp.cmpi .sge (x0 i) 4294947295#32 = 1#1)
    (hi : ∀ i, IntOp.cmpi .sle (x0 i) 20000#32 = 1#1) (k : S16x512.Idx) : geneOk x0 k = 1#1 := by
  unfold geneOk
  refine Cert.IndexRange.reduce_andi_one _ _ _ _ (fun _ => rfl) (fun j => ?_) k
  obtain ⟨h1, h2⟩ := Cert.IndexRange.wrap_gene _ (lo (ix2 ⟨(j 0).val, (j 0).isLt⟩ ⟨(j 1).val, (j 1).isLt⟩))
    (hi (ix2 ⟨(j 0).val, (j 0).isLt⟩ ⟨(j 1).val, (j 1).isLt⟩))
  show IntOp.andi (IntOp.cmpi .sge (geneIdx x0 j) _) (IntOp.cmpi .sle (geneIdx x0 j) _) = 1#1
  rw [geneIdx_apply]
  show IntOp.andi (IntOp.cmpi .sge _ 0#32) (IntOp.cmpi .sle _ 20000#32) = 1#1
  rw [h1, h2]; decide

/-- … so the kernel's gene `take` is the plain gather. -/
theorem geneTake_eq (x0 : IVec S16x512 32) (x2 : FVec F S20001x512 .f32) (lo : ∀ i, IntOp.cmpi .sge (x0 i) 4294947295#32 = 1#1)
    (hi : ∀ i, IntOp.cmpi .sle (x0 i) 20000#32 = 1#1) : geneTake x0 x2 = geneRows x0 x2 := by
  funext i
  unfold geneTake
  rw [select_apply, broadcastInDim_apply _ bcast_S16x512_S16x512x512_0_1 _ i (ix2 ⟨(i 0).val, (i 0).isLt⟩ ⟨(i 1).val, (i 1).isLt⟩)
    (fun a => by match a with | ⟨0, _⟩ => rfl | ⟨1, _⟩ => rfl), geneOk_one x0 lo hi]
  rfl

theorem ptwIdx_apply (y : IVec S32 32) (j : S32x1.Idx) :
    ptwIdx y j = Cert.IndexRange.wrap 1000#32 (y (ix1 ⟨(j 0).val, (j 0).isLt⟩)) := by
  unfold ptwIdx
  rw [broadcastInDim_apply _ bcast_S32_S32x1_0 _ j (ix1 ⟨(j 0).val, (j 0).isLt⟩)
    (fun a => by match a with | ⟨0, _⟩ => rfl)]
  rfl

theorem ptwOk_one (y : IVec S32 32) (lo : ∀ i, IntOp.cmpi .sge (y i) 4294966296#32 = 1#1)
    (hi : ∀ i, IntOp.cmpi .sle (y i) 999#32 = 1#1) (k : S32.Idx) : ptwOk y k = 1#1 := by
  unfold ptwOk
  refine Cert.IndexRange.reduce_andi_one _ _ _ _ (fun _ => rfl) (fun j => ?_) k
  obtain ⟨h1, h2⟩ := Cert.IndexRange.wrap_ptw _ (lo (ix1 ⟨(j 0).val, (j 0).isLt⟩)) (hi (ix1 ⟨(j 0).val, (j 0).isLt⟩))
  show IntOp.andi (IntOp.cmpi .sge (ptwIdx y j) _) (IntOp.cmpi .sle (ptwIdx y j) _) = 1#1
  rw [ptwIdx_apply]
  show IntOp.andi (IntOp.cmpi .sge _ 0#32) (IntOp.cmpi .sle _ 999#32) = 1#1
  rw [h1, h2]; decide

theorem ptwTake_eq (y : IVec S32 32) (x3 : FVec F S1000x400 .f32) (lo : ∀ i, IntOp.cmpi .sge (y i) 4294966296#32 = 1#1)
    (hi : ∀ i, IntOp.cmpi .sle (y i) 999#32 = 1#1) : ptwTake y x3 = ptwRows y x3 := by
  funext i
  unfold ptwTake
  rw [select_apply, broadcastInDim_apply _ bcast_S32_S32x400_0 _ i (ix1 ⟨(i 0).val, (i 0).isLt⟩)
    (fun a => by match a with | ⟨0, _⟩ => rfl), ptwOk_one y lo hi]
  rfl

/-- Every entry of the flattened pathway ids is an entry of the ids. -/
theorem ptwFlat_apply (x1 : IVec S1x32 32) (i : S32.Idx) : ptwFlat x1 i = x1 (ix2 (0 : Fin 1) ⟨(i 0).val, (i 0).isLt⟩) := by
  unfold ptwFlat
  exact shapeCast_apply _ shapeCasts_S1x32_S32 i _ (by
    simp only [Shape.rowMajor_val_two]; rfl)

end Cert.KernelIdeal.HostSide

end
-- ==== Proof.Pool.lean ====
/-
  Attention pooling of one batch member against one pathway, on the extended reals.

  For a batch member's gene embeddings `E : 512 × 512` (gene × feature) and one pathway's context row
  `c : 400`, with projection `w0 : 512 × 400`, `b0 : 400` and head weights `bw : 400 × 8`, `bb : 8`:

    proj g a   = (∑ d, E g d · w0 d a) + b0 a
    feat g a   = tanh (proj g a + c a)
    logit g h  = (∑ a, feat g a · bw a h) + bb h
    peak h     = max over the genes g of logit g h          (a fold of `max` from −∞)
    expo g h   = exp (logit g h − peak h)
    mass h     = ∑ g, expo g h
    share g h  = expo g h / mass h                          (the softmax over genes, per head)
    weight g   = ∑ h, share g h                             (heads summed)
    pool d     = ∑ g, weight g · E g d

  Every operation is the exact one on `[−∞, +∞]`; nothing here asks the data to be finite. Both programs of the
  certificate compute `pool`, row by row: the kernel eight pathways at a time inside one batch member, the reference
  over the whole [16, 32, 512, ·] arrays at once.
-/
import Idealize.ShloMosaic.PureOps.Ideal

noncomputable section

namespace Cert.AttnPool

open Idealize.ShloMosaic

variable (E : Fin 512 → Fin 512 → EReal) (c : Fin 400 → EReal) (w0 : Fin 512 → Fin 400 → EReal) (b0 : Fin 400 → EReal)
  (bw : Fin 400 → Fin 8 → EReal) (bb : Fin 8 → EReal)

/-- The linear projection of gene `g`'s embedding, coordinate `a`. -/
def proj (g : Fin 512) (a : Fin 400) : EReal := (∑ d : Fin 512, E g d * w0 d a) + b0 a

/-- The additive-attention feature: `tanh` of the projection shifted by the pathway's context. -/
def feat (g : Fin 512) (a : Fin 400) : EReal := Ideal.tanh (proj E w0 b0 g a + c a)

/-- Head `h`'s attention logit of gene `g`. -/
def logit (g : Fin 512) (h : Fin 8) : EReal := (∑ a : Fin 400, feat E c w0 b0 g a * bw a h) + bb h

/-- The value the word `0xFF800000` denotes: the fold of `max` starts from it. It is `−∞` (`negInf_eq`). -/
def negInf : EReal := Ideal.ofBits .f32 0xFF800000#32

theorem negInf_eq : negInf = ⊥ := by simp [negInf, Ideal.ofBits, Ideal.ieee]

/-- Head `h`'s largest logit over the genes. -/
def peak (h : Fin 8) : EReal :=
  (Finset.univ : Finset (Fin 512)).fold max negInf (fun g => logit E c w0 b0 bw bb g h)

/-- The shifted exponential. -/
def expo (g : Fin 512) (h : Fin 8) : EReal := Ideal.exp (logit E c w0 b0 bw bb g h - peak E c w0 b0 bw bb h)

/-- The softmax's normaliser of head `h`. -/
def mass (h : Fin 8) : EReal := ∑ g : Fin 512, expo E c w0 b0 bw bb g h

/-- Gene `g`'s softmax share under head `h`. -/
def share (g : Fin 512) (h : Fin 8) : EReal := Ideal.div (expo E c w0 b0 bw bb g h) (mass E c w0 b0 bw bb h)

/-- Gene `g`'s pooling weight: its shares summed over the heads. -/
def weight (g : Fin 512) : EReal := ∑ h : Fin 8, share E c w0 b0 bw bb g h

/-- The pooled embedding, coordinate `d`. -/
def pool (d : Fin 512) : EReal := ∑ g : Fin 512, weight E c w0 b0 bw bb g * E g d

/-- Folding `max` from `−∞` and then taking `max` with `−∞` once more changes nothing. -/
theorem max_negInf_left (x : EReal) : max negInf x = x := by rw [negInf_eq]; exact max_bot_left x

end Cert.AttnPool

end
-- ==== Proof.PayPool.lean ====
/-
  The kernel body's payload is the attention pooling: for eight pathways at a time, row `q` of the payload is `pool` of
  the batch member's embeddings against context row `q`. The head weights reach the body transposed ([8, 400]), and the
  body multiplies weight × feature where the specification has feature × weight.
-/
import proofs.«414130_j42460046688738_3_alg».proof.Proof.Gen.KernelIdeal.Skeleton
import proofs.«414130_j42460046688738_3_alg».proof.Proof.Pool
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayPool

open Cert.KernelIdeal Cert.KernelIdeal.Gen Idealize.ShloMosaic Idealize.ShloMosaic.ValueIdx

/-! ## The three products at an index

Each product is into the zero accumulator, so its element is the bare sum over the one contracted axis. The axis
lemmas say which coordinate of the result, or of the contraction index, each operand axis reads. -/

/-! ### Embeddings [512, 512] times projection [512, 400] -/

theorem lhs_proj_0 (i : S512x400.Idx) (q : dot_S512x512_S512x400_S512x400_1_0_0_1_n_n.contr.Idx) :
    (dot_S512x512_S512x400_S512x400_1_0_0_1_n_n.lhsIdx i q 0).val = (i 0).val := by
  unfold DotDims.lhsIdx
  rw [dif_neg (show ¬(0 : Fin S512x512.rank) ∈ dot_S512x512_S512x400_S512x400_1_0_0_1_n_n.lhsBatch by decide), dif_pos (show (0 : Fin S512x512.rank) ∈ dot_S512x512_S512x400_S512x400_1_0_0_1_n_n.lhsNonContracting by decide)]
  rfl
theorem lhs_proj_1 (i : S512x400.Idx) (q : dot_S512x512_S512x400_S512x400_1_0_0_1_n_n.contr.Idx) :
    (dot_S512x512_S512x400_S512x400_1_0_0_1_n_n.lhsIdx i q 1).val = (q ⟨0, by decide⟩).val :=
  dot_S512x512_S512x400_S512x400_1_0_0_1_n_n.lhsIdx_val_of_single rfl i q
theorem rhs_proj_0 (i : S512x400.Idx) (q : dot_S512x512_S512x400_S512x400_1_0_0_1_n_n.contr.Idx) :
    (dot_S512x512_S512x400_S512x400_1_0_0_1_n_n.rhsIdx i q 0).val = (q ⟨0, by decide⟩).val :=
  dot_S512x512_S512x400_S512x400_1_0_0_1_n_n.rhsIdx_val_of_single rfl i q
theorem rhs_proj_1 (i : S512x400.Idx) (q : dot_S512x512_S512x400_S512x400_1_0_0_1_n_n.contr.Idx) :
    (dot_S512x512_S512x400_S512x400_1_0_0_1_n_n.rhsIdx i q 1).val = (i 1).val := by
  unfold DotDims.rhsIdx
  rw [dif_neg (show ¬(1 : Fin S512x400.rank) ∈ dot_S512x512_S512x400_S512x400_1_0_0_1_n_n.rhsBatch by decide), dif_pos (show (1 : Fin S512x400.rank) ∈ dot_S512x512_S512x400_S512x400_1_0_0_1_n_n.rhsNonContracting by decide)]
  rfl

/-- Row g of the embeddings against column a of the projection. -/
theorem matmul_proj_apply (x : FVec Ideal S512x512 .bf16) (w : FVec Ideal S512x400 .bf16) (g : Fin 512) (a : Fin 400) :
    matmul dot_S512x512_S512x400_S512x400_1_0_0_1_n_n none x w (constant (F := Ideal) S512x400 .f32 0x00000000#32) (ix2 g a)
      = ∑ d : Fin 512, x (ix2 g d) * w (ix2 d a) := by
  refine (Ideal.matmul_constant_zero_apply dot_S512x512_S512x400_S512x400_1_0_0_1_n_n none x w (ix2 g a)).trans ?_
  rw [← Equiv.sum_comp (ValueIdx.contrEquiv1 dot_S512x512_S512x400_S512x400_1_0_0_1_n_n 512 rfl rfl).symm]
  refine Finset.sum_congr rfl fun k _ => ?_
  have hk := ValueIdx.contrEquiv1_symm_val dot_S512x512_S512x400_S512x400_1_0_0_1_n_n 512 rfl rfl k
  have el : dot_S512x512_S512x400_S512x400_1_0_0_1_n_n.lhsIdx (ix2 g a) ((ValueIdx.contrEquiv1 dot_S512x512_S512x400_S512x400_1_0_0_1_n_n 512 rfl rfl).symm k) = ix2 g k := funext fun c => Fin.ext (by
    match c with
    | ⟨0, _⟩ => exact lhs_proj_0 _ _
    | ⟨1, _⟩ => exact (lhs_proj_1 _ _).trans hk)
  have er : dot_S512x512_S512x400_S512x400_1_0_0_1_n_n.rhsIdx (ix2 g a) ((ValueIdx.contrEquiv1 dot_S512x512_S512x400_S512x400_1_0_0_1_n_n 512 rfl rfl).symm k) = ix2 k a := funext fun c => Fin.ext (by
    match c with
    | ⟨0, _⟩ => exact (rhs_proj_0 _ _).trans hk
    | ⟨1, _⟩ => exact rhs_proj_1 _ _)
  rw [el, er]

/-! ### Head weights [8, 8, 400] times features [8, 512, 400], batched over the pathway axis -/

theorem lhs_logit_0 (i : S8x8x512.Idx) (q : dot_S8x8x400_S8x512x400_S8x8x512_2_2_1_1_0_0.contr.Idx) :
    (dot_S8x8x400_S8x512x400_S8x8x512_2_2_1_1_0_0.lhsIdx i q 0).val = (i 0).val := by
  unfold DotDims.lhsIdx
  rw [dif_pos (show (0 : Fin S8x8x400.rank) ∈ dot_S8x8x400_S8x512x400_S8x8x512_2_2_1_1_0_0.lhsBatch by decide)]
  rfl
theorem lhs_logit_1 (i : S8x8x512.Idx) (q : dot_S8x8x400_S8x512x400_S8x8x512_2_2_1_1_0_0.contr.Idx) :
    (dot_S8x8x400_S8x512x400_S8x8x512_2_2_1_1_0_0.lhsIdx i q 1).val = (i 1).val := by
  unfold DotDims.lhsIdx
  rw [dif_neg (show ¬(1 : Fin S8x8x400.rank) ∈ dot_S8x8x400_S8x512x400_S8x8x512_2_2_1_1_0_0.lhsBatch by decide), dif_pos (show (1 : Fin S8x8x400.rank) ∈ dot_S8x8x400_S8x512x400_S8x8x512_2_2_1_1_0_0.lhsNonContracting by decide)]
  rfl
theorem lhs_logit_2 (i : S8x8x512.Idx) (q : dot_S8x8x400_S8x512x400_S8x8x512_2_2_1_1_0_0.contr.Idx) :
    (dot_S8x8x400_S8x512x400_S8x8x512_2_2_1_1_0_0.lhsIdx i q 2).val = (q ⟨0, by decide⟩).val :=
  dot_S8x8x400_S8x512x400_S8x8x512_2_2_1_1_0_0.lhsIdx_val_of_single rfl i q
theorem rhs_logit_0 (i : S8x8x512.Idx) (q : dot_S8x8x400_S8x512x400_S8x8x512_2_2_1_1_0_0.contr.Idx) :
    (dot_S8x8x400_S8x512x400_S8x8x512_2_2_1_1_0_0.rhsIdx i q 0).val = (i 0).val := by
  unfold DotDims.rhsIdx
  rw [dif_pos (show (0 : Fin S8x512x400.rank) ∈ dot_S8x8x400_S8x512x400_S8x8x512_2_2_1_1_0_0.rhsBatch by decide)]
  rfl
theorem rhs_logit_1 (i : S8x8x512.Idx) (q : dot_S8x8x400_S8x512x400_S8x8x512_2_2_1_1_0_0.contr.Idx) :
    (dot_S8x8x400_S8x512x400_S8x8x512_2_2_1_1_0_0.rhsIdx i q 1).val = (i 2).val := by
  unfold DotDims.rhsIdx
  rw [dif_neg (show ¬(1 : Fin S8x512x400.rank) ∈ dot_S8x8x400_S8x512x400_S8x8x512_2_2_1_1_0_0.rhsBatch by decide), dif_pos (show (1 : Fin S8x512x400.rank) ∈ dot_S8x8x400_S8x512x400_S8x8x512_2_2_1_1_0_0.rhsNonContracting by decide)]
  rfl
theorem rhs_logit_2 (i : S8x8x512.Idx) (q : dot_S8x8x400_S8x512x400_S8x8x512_2_2_1_1_0_0.contr.Idx) :
    (dot_S8x8x400_S8x512x400_S8x8x512_2_2_1_1_0_0.rhsIdx i q 2).val = (q ⟨0, by decide⟩).val :=
  dot_S8x8x400_S8x512x400_S8x8x512_2_2_1_1_0_0.rhsIdx_val_of_single rfl i q

/-- Pathway q: head h's weights against gene g's features. -/
theorem matmul_logit_apply (w : FVec Ideal S8x8x400 .bf16) (f : FVec Ideal S8x512x400 .bf16) (q h : Fin 8) (g : Fin 512) :
    matmul dot_S8x8x400_S8x512x400_S8x8x512_2_2_1_1_0_0 none w f (constant (F := Ideal) S8x8x512 .f32 0x00000000#32) (ix3 q h g)
      = ∑ a : Fin 400, w (ix3 q h a) * f (ix3 q g a) := by
  refine (Ideal.matmul_constant_zero_apply dot_S8x8x400_S8x512x400_S8x8x512_2_2_1_1_0_0 none w f (ix3 q h g)).trans ?_
  rw [← Equiv.sum_comp (ValueIdx.contrEquiv1 dot_S8x8x400_S8x512x400_S8x8x512_2_2_1_1_0_0 400 rfl rfl).symm]
  refine Finset.sum_congr rfl fun k _ => ?_
  have hk := ValueIdx.contrEquiv1_symm_val dot_S8x8x400_S8x512x400_S8x8x512_2_2_1_1_0_0 400 rfl rfl k
  have el : dot_S8x8x400_S8x512x400_S8x8x512_2_2_1_1_0_0.lhsIdx (ix3 q h g) ((ValueIdx.contrEquiv1 dot_S8x8x400_S8x512x400_S8x8x512_2_2_1_1_0_0 400 rfl rfl).symm k) = ix3 q h k := funext fun c => Fin.ext (by
    match c with
    | ⟨0, _⟩ => exact lhs_logit_0 _ _
    | ⟨1, _⟩ => exact lhs_logit_1 _ _
    | ⟨2, _⟩ => exact (lhs_logit_2 _ _).trans hk)
  have er : dot_S8x8x400_S8x512x400_S8x8x512_2_2_1_1_0_0.rhsIdx (ix3 q h g) ((ValueIdx.contrEquiv1 dot_S8x8x400_S8x512x400_S8x8x512_2_2_1_1_0_0 400 rfl rfl).symm k) = ix3 q g k := funext fun c => Fin.ext (by
    match c with
    | ⟨0, _⟩ => exact rhs_logit_0 _ _
    | ⟨1, _⟩ => exact rhs_logit_1 _ _
    | ⟨2, _⟩ => exact (rhs_logit_2 _ _).trans hk)
  rw [el, er]

/-! ### Pooling weights [8, 512] times embeddings [512, 512] -/

theorem lhs_pool_0 (i : S8x512.Idx) (q : dot_S8x512_S512x512_S8x512_1_0_0_1_n_n.contr.Idx) :
    (dot_S8x512_S512x512_S8x512_1_0_0_1_n_n.lhsIdx i q 0).val = (i 0).val := by
  unfold DotDims.lhsIdx
  rw [dif_neg (show ¬(0 : Fin S8x512.rank) ∈ dot_S8x512_S512x512_S8x512_1_0_0_1_n_n.lhsBatch by decide), dif_pos (show (0 : Fin S8x512.rank) ∈ dot_S8x512_S512x512_S8x512_1_0_0_1_n_n.lhsNonContracting by decide)]
  rfl
theorem lhs_pool_1 (i : S8x512.Idx) (q : dot_S8x512_S512x512_S8x512_1_0_0_1_n_n.contr.Idx) :
    (dot_S8x512_S512x512_S8x512_1_0_0_1_n_n.lhsIdx i q 1).val = (q ⟨0, by decide⟩).val :=
  dot_S8x512_S512x512_S8x512_1_0_0_1_n_n.lhsIdx_val_of_single rfl i q
theorem rhs_pool_0 (i : S8x512.Idx) (q : dot_S8x512_S512x512_S8x512_1_0_0_1_n_n.contr.Idx) :
    (dot_S8x512_S512x512_S8x512_1_0_0_1_n_n.rhsIdx i q 0).val = (q ⟨0, by decide⟩).val :=
  dot_S8x512_S512x512_S8x512_1_0_0_1_n_n.rhsIdx_val_of_single rfl i q
theorem rhs_pool_1 (i : S8x512.Idx) (q : dot_S8x512_S512x512_S8x512_1_0_0_1_n_n.contr.Idx) :
    (dot_S8x512_S512x512_S8x512_1_0_0_1_n_n.rhsIdx i q 1).val = (i 1).val := by
  unfold DotDims.rhsIdx
  rw [dif_neg (show ¬(1 : Fin S512x512.rank) ∈ dot_S8x512_S512x512_S8x512_1_0_0_1_n_n.rhsBatch by decide), dif_pos (show (1 : Fin S512x512.rank) ∈ dot_S8x512_S512x512_S8x512_1_0_0_1_n_n.rhsNonContracting by decide)]
  rfl

/-- Pathway q's weights against column d of the embeddings. -/
theorem matmul_pool_apply (w : FVec Ideal S8x512 .bf16) (x : FVec Ideal S512x512 .bf16) (q : Fin 8) (d : Fin 512) :
    matmul dot_S8x512_S512x512_S8x512_1_0_0_1_n_n none w x (constant (F := Ideal) S8x512 .f32 0x00000000#32) (ix2 q d)
      = ∑ g : Fin 512, w (ix2 q g) * x (ix2 g d) := by
  refine (Ideal.matmul_constant_zero_apply dot_S8x512_S512x512_S8x512_1_0_0_1_n_n none w x (ix2 q d)).trans ?_
  rw [← Equiv.sum_comp (ValueIdx.contrEquiv1 dot_S8x512_S512x512_S8x512_1_0_0_1_n_n 512 rfl rfl).symm]
  refine Finset.sum_congr rfl fun k _ => ?_
  have hk := ValueIdx.contrEquiv1_symm_val dot_S8x512_S512x512_S8x512_1_0_0_1_n_n 512 rfl rfl k
  have el : dot_S8x512_S512x512_S8x512_1_0_0_1_n_n.lhsIdx (ix2 q d) ((ValueIdx.contrEquiv1 dot_S8x512_S512x512_S8x512_1_0_0_1_n_n 512 rfl rfl).symm k) = ix2 q k := funext fun c => Fin.ext (by
    match c with
    | ⟨0, _⟩ => exact lhs_pool_0 _ _
    | ⟨1, _⟩ => exact (lhs_pool_1 _ _).trans hk)
  have er : dot_S8x512_S512x512_S8x512_1_0_0_1_n_n.rhsIdx (ix2 q d) ((ValueIdx.contrEquiv1 dot_S8x512_S512x512_S8x512_1_0_0_1_n_n 512 rfl rfl).symm k) = ix2 k d := funext fun c => Fin.ext (by
    match c with
    | ⟨0, _⟩ => exact (rhs_pool_0 _ _).trans hk
    | ⟨1, _⟩ => exact rhs_pool_1 _ _)
  rw [el, er]

/-! ## Layout operations at an index

The casts and broadcasts the body uses to line its operands up: a unit axis put in the middle or at the end of a
shape, and a broadcast along the axes on which the operand has extent one. -/

section Layout
variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [1, a, 1] reads, at (u, i, w), the operand at i. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A [1, m, b] array broadcast to [a, m, b] reads, at (p, i, c), the operand's one slab at (i, c). -/
theorem broadcastTo_1mb_amb_apply {a m b : ℕ} (v : (⟨3, ![1, m, b]⟩ : Shape).Idx → α)
    (h : (⟨3, ![1, m, b]⟩ : Shape).Broadcasts ⟨3, ![a, m, b]⟩) (p : Fin a) (i : Fin m) (c : Fin b) :
    broadcastTo ⟨3, ![a, m, b]⟩ v h (ix3 p i c) = v (ix3 (0 : Fin 1) i c) := by
  refine broadcastTo_apply v h (ix3 p i c) (ix3 (0 : Fin 1) i c) fun ax => ?_
  match ax with
  | ⟨0, _⟩ => rfl
  | ⟨1, _⟩ =>
    show i.val = if m = 1 then 0 else i.val
    split
    · have := i.isLt; omega
    · rfl
  | ⟨2, _⟩ =>
    show c.val = if b = 1 then 0 else c.val
    split
    · have := c.isLt; omega
    · rfl

/-- An [a, 1, b] array broadcast to [a, m, b] reads, at (p, i, c), the operand at (p, 0, c). -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (i : Fin m) (c : Fin b) :
    broadcastTo ⟨3, ![a, m, b]⟩ v h (ix3 p i c) = v (ix3 p (0 : Fin 1) c) := by
  refine broadcastTo_apply v h (ix3 p i c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- An [a, m, 1] array broadcast to [a, m, b] reads, at (p, i, c), the operand at (p, i, 0). -/
theorem broadcastTo_am1_amb_apply {a m b : ℕ} (v : (⟨3, ![a, m, 1]⟩ : Shape).Idx → α)
    (h : (⟨3, ![a, m, 1]⟩ : Shape).Broadcasts ⟨3, ![a, m, b]⟩) (p : Fin a) (i : Fin m) (c : Fin b) :
    broadcastTo ⟨3, ![a, m, b]⟩ v h (ix3 p i c) = v (ix3 p i (0 : Fin 1)) := by
  refine broadcastTo_apply v h (ix3 p i c) (ix3 p i (0 : Fin 1)) fun ax => ?_
  match ax with
  | ⟨0, _⟩ =>
    show p.val = if a = 1 then 0 else p.val
    split
    · have := p.isLt; omega
    · rfl
  | ⟨1, _⟩ =>
    show i.val = if m = 1 then 0 else i.val
    split
    · have := i.isLt; omega
    · rfl
  | ⟨2, _⟩ => rfl

/-- A [1, m, 1] array broadcast to [a, m, b] reads, at (p, i, c), the operand at (0, i, 0). -/
theorem broadcastTo_1m1_amb_apply {a m b : ℕ} (v : (⟨3, ![1, m, 1]⟩ : Shape).Idx → α)
    (h : (⟨3, ![1, m, 1]⟩ : Shape).Broadcasts ⟨3, ![a, m, b]⟩) (p : Fin a) (i : Fin m) (c : Fin b) :
    broadcastTo ⟨3, ![a, m, b]⟩ v h (ix3 p i c) = v (ix3 (0 : Fin 1) i (0 : Fin 1)) := by
  refine broadcastTo_apply v h (ix3 p i c) (ix3 (0 : Fin 1) i (0 : Fin 1)) fun ax => ?_
  match ax with
  | ⟨0, _⟩ => rfl
  | ⟨1, _⟩ =>
    show i.val = if m = 1 then 0 else i.val
    split
    · have := i.isLt; omega
    · rfl
  | ⟨2, _⟩ => rfl

end Layout

/-! ## The lane reductions at an index, and the two pointwise transcendental operations -/

/-- The maximum over the genes, from the accumulator word's value. -/
theorem rowmax_apply (x : FVec Ideal S8x8x512 .f32) (q h : Fin 8) :
    multiReduction (F := Ideal) .maximumf [2] S8x8 x 0xFF800000#32 reduces_S8x8x512_S8x8 (.inl rfl) rfl (ix2 q h)
      = (Finset.univ : Finset (Fin 512)).fold max Cert.AttnPool.negInf (fun g => x (ix3 q h g)) := by
  refine (Ideal.multiReduction_maximumf_single x 0xFF800000#32 reduces_S8x8x512_S8x8 (.inl rfl) rfl (ix2 q h)).trans ?_
  have e : (x ∘ (reduces_S8x8x512_S8x8).lift (ix2 q h)) = fun g : Fin 512 => x (ix3 q h g) :=
    funext fun g => congrArg x (funext fun c => Fin.ext (by match c with | ⟨0, _⟩ => rfl | ⟨1, _⟩ => rfl | ⟨2, _⟩ => rfl))
  exact congrArg (fun f => (Finset.univ : Finset (Fin 512)).fold max Cert.AttnPool.negInf f) e

/-- The sum over the genes. -/
theorem genesum_apply (x : FVec Ideal S8x8x512 .f32) (q h : Fin 8) :
    multiReduction (F := Ideal) .add [2] S8x8 x 0x00000000#32 reduces_S8x8x512_S8x8 (.inl rfl) rfl (ix2 q h)
      = ∑ g : Fin 512, x (ix3 q h g) := by
  refine (Ideal.multiReduction_add_single x 0x00000000#32 reduces_S8x8x512_S8x8 (.inl rfl) rfl (ix2 q h)).trans ?_
  exact Finset.sum_congr rfl fun g _ => congrArg x (funext fun c => Fin.ext (by match c with | ⟨0, _⟩ => rfl | ⟨1, _⟩ => rfl | ⟨2, _⟩ => rfl))

/-- The sum over the heads. -/
theorem headsum_apply (x : FVec Ideal S8x8x512 .f32) (q : Fin 8) (g : Fin 512) :
    multiReduction (F := Ideal) .add [1] S8x512 x 0x00000000#32 reduces_S8x8x512_S8x512 (.inl rfl) rfl (ix2 q g)
      = ∑ h : Fin 8, x (ix3 q h g) := by
  refine (Ideal.multiReduction_add_single x 0x00000000#32 reduces_S8x8x512_S8x512 (.inl rfl) rfl (ix2 q g)).trans ?_
  exact Finset.sum_congr rfl fun h _ => congrArg x (funext fun c => Fin.ext (by match c with | ⟨0, _⟩ => rfl | ⟨1, _⟩ => rfl | ⟨2, _⟩ => rfl))

theorem tanh_apply {s : Shape} {φ : FTy} (x : FVec Ideal s φ) (i : s.Idx) : tanh x i = Ideal.tanh (x i) := rfl
theorem exp_apply {s : Shape} {φ : FTy} (x : FVec Ideal s φ) (i : s.Idx) : exp x i = Ideal.exp (x i) := rfl

/-! ## The body's values, stage by stage

The payload is cut at the values the specification names. Each stage below is the body's own term over the stages
before it, and its lemma reads it at explicit coordinates as the specification's function of the same name. -/

section Stages
variable (v0 : Vec Ideal S1x512x512 .bf16) (v2 : Vec Ideal S512x400 .bf16) (v4 : Vec Ideal S400 .f32)
  (v5 : Vec Ideal S8x400 .bf16) (v7 : Vec Ideal S8 .f32) (v19 : Vec Ideal S8x400 .f32)

/-- The batch member's embeddings as a [512, 512] matrix. -/
def embV : FVec Ideal S512x512 .bf16 := shapeCast S512x512 v0 shapeCasts_S1x512x512_S512x512

/-- The projection of every gene, bias added. -/
def projV : FVec Ideal S512x400 .f32 :=
  addf (matmul dot_S512x512_S512x400_S512x400_1_0_0_1_n_n none (embV v0) (shapeCast S512x400 v2 shapeCasts_S512x400_S512x400 : FVec Ideal S512x400 .bf16)
      (constant (F := Ideal) S512x400 .f32 0x00000000#32))
    (broadcastTo S512x400 (shapeCast S1x400 v4 shapeCasts_S400_S1x400 : FVec Ideal S1x400 .f32) broadcasts_S1x400_S512x400)

/-- The head weights, one copy per pathway. -/
def headV : FVec Ideal S8x8x400 .bf16 :=
  broadcastTo S8x8x400
    (shapeCast S1x8x400 (shapeCast S1x8x400 (shapeCast S8x400 v5 shapeCasts_S8x400_S8x400 : FVec Ideal S8x400 .bf16) shapeCasts_S8x400_S1x8x400)
      shapeCasts_S1x8x400_S1x8x400)
    broadcasts_S1x8x400_S8x8x400

/-- The features of every (pathway, gene). -/
def featV : FVec Ideal S8x512x400 .f32 :=
  tanh (addf
    (broadcastTo S8x512x400 (shapeCast S1x512x400 (projV v0 v2 v4) shapeCasts_S512x400_S1x512x400) broadcasts_S1x512x400_S8x512x400)
    (broadcastTo S8x512x400 (shapeCast S8x1x400 (shapeCast S8x400 v19 shapeCasts_S8x400_S8x400 : FVec Ideal S8x400 .f32) shapeCasts_S8x400_S8x1x400)
      broadcasts_S8x1x400_S8x512x400))

/-- The logits, laid out (pathway, head, gene). -/
def logitV : FVec Ideal S8x8x512 .f32 :=
  addf (matmul dot_S8x8x400_S8x512x400_S8x8x512_2_2_1_1_0_0 none (headV v5) (truncf .bf16 (featV v0 v2 v4 v19) bitsLt_bf16_f32)
      (constant (F := Ideal) S8x8x512 .f32 0x00000000#32))
    (broadcastTo S8x8x512 (shapeCast S1x8x1 v7 shapeCasts_S8_S1x8x1 : FVec Ideal S1x8x1 .f32) broadcasts_S1x8x1_S8x8x512)

/-- The largest logit of every (pathway, head). -/
def peakV : FVec Ideal S8x8 .f32 :=
  multiReduction (F := Ideal) .maximumf [2] S8x8 (logitV v0 v2 v4 v5 v7 v19) 0xFF800000#32 reduces_S8x8x512_S8x8 (.inl rfl) rfl

/-- The shifted exponentials. -/
def expoV : FVec Ideal S8x8x512 .f32 :=
  exp (subf (logitV v0 v2 v4 v5 v7 v19)
    (broadcastTo S8x8x512 (shapeCast S8x8x1 (peakV v0 v2 v4 v5 v7 v19) shapeCasts_S8x8_S8x8x1) broadcasts_S8x8x1_S8x8x512))

/-- The normalisers. -/
def massV : FVec Ideal S8x8 .f32 :=
  multiReduction (F := Ideal) .add [2] S8x8 (expoV v0 v2 v4 v5 v7 v19) 0x00000000#32 reduces_S8x8x512_S8x8 (.inl rfl) rfl

/-- The softmax shares. -/
def shareV : FVec Ideal S8x8x512 .f32 :=
  divf (expoV v0 v2 v4 v5 v7 v19)
    (broadcastTo S8x8x512 (shapeCast S8x8x1 (massV v0 v2 v4 v5 v7 v19) shapeCasts_S8x8_S8x8x1) broadcasts_S8x8x1_S8x8x512)

/-- The pooling weights: shares summed over the heads. -/
def weightV : FVec Ideal S8x512 .f32 :=
  multiReduction (F := Ideal) .add [1] S8x512 (shareV v0 v2 v4 v5 v7 v19) 0x00000000#32 reduces_S8x8x512_S8x512 (.inl rfl) rfl

/-- The pooled embeddings. -/
def poolV : FVec Ideal S8x512 .f32 :=
  matmul dot_S8x512_S512x512_S8x512_1_0_0_1_n_n none (truncf .bf16 (weightV v0 v2 v4 v5 v7 v19) bitsLt_bf16_f32) (embV v0)
    (constant (F := Ideal) S8x512 .f32 0x00000000#32)

/-- The payload is the last stage with a unit axis in front. -/
theorem pay_eq_stages :
    k0_pay1 (F := Ideal) v0 v2 v4 v5 v7 v19 = shapeCast S1x8x512 (poolV v0 v2 v4 v5 v7 v19) shapeCasts_S8x512_S1x8x512 := rfl

/-! The specification's arguments as the body's operands give them. -/

local notation "E" => (fun (g d' : Fin 512) => v0 (ix3 (0 : Fin 1) g d'))
local notation "W0" => (fun (d' : Fin 512) (a : Fin 400) => v2 (ix2 d' a))
local notation "B0" => (fun (a : Fin 400) => v4 (ix1 a))
local notation "BW" => (fun (a : Fin 400) (h : Fin 8) => v5 (ix2 h a))
local notation "BB" => (fun (h : Fin 8) => v7 (ix1 h))

theorem embV_apply (g d : Fin 512) : embV v0 (ix2 g d) = v0 (ix3 (0 : Fin 1) g d) :=
  shapeCast_1ab_ab_apply v0 _ g d

theorem projV_apply (g : Fin 512) (a : Fin 400) :
    projV v0 v2 v4 (ix2 g a) = Cert.AttnPool.proj E W0 B0 g a := by
  unfold projV Cert.AttnPool.proj
  rw [addf_apply, matmul_proj_apply, shapeCast_self, broadcastTo_1b_ab_apply, shapeCast_a_1a_apply]
  simp only [embV_apply]

theorem headV_apply (q h : Fin 8) (a : Fin 400) : headV v5 (ix3 q h a) = v5 (ix2 h a) := by
  unfold headV
  rw [broadcastTo_1mb_amb_apply, shapeCast_self, shapeCast_ab_1ab_apply, shapeCast_self]

theorem featV_apply (q : Fin 8) (g : Fin 512) (a : Fin 400) :
    featV v0 v2 v4 v19 (ix3 q g a) = Cert.AttnPool.feat E (fun a => v19 (ix2 q a)) W0 B0 g a := by
  unfold featV Cert.AttnPool.feat
  rw [tanh_apply, addf_apply, broadcastTo_1mb_amb_apply, shapeCast_ab_1ab_apply, projV_apply,
    broadcastTo_a1b_amb_apply, shapeCast_ab_a1b_apply, shapeCast_self]

theorem logitV_apply (q h : Fin 8) (g : Fin 512) :
    logitV v0 v2 v4 v5 v7 v19 (ix3 q h g) = Cert.AttnPool.logit E (fun a => v19 (ix2 q a)) W0 B0 BW BB g h := by
  unfold logitV Cert.AttnPool.logit
  rw [addf_apply, matmul_logit_apply, broadcastTo_1m1_amb_apply, shapeCast_a_1a1_apply]
  refine congrArg (· + v7 (ix1 h)) (Finset.sum_congr rfl fun a _ => ?_)
  rw [headV_apply, truncf_apply, featV_apply]
  exact mul_comm _ _

theorem peakV_apply (q h : Fin 8) :
    peakV v0 v2 v4 v5 v7 v19 (ix2 q h) = Cert.AttnPool.peak E (fun a => v19 (ix2 q a)) W0 B0 BW BB h := by
  unfold peakV Cert.AttnPool.peak
  rw [rowmax_apply]
  simp only [logitV_apply]

theorem expoV_apply (q h : Fin 8) (g : Fin 512) :
    expoV v0 v2 v4 v5 v7 v19 (ix3 q h g) = Cert.AttnPool.expo E (fun a => v19 (ix2 q a)) W0 B0 BW BB g h := by
  unfold expoV Cert.AttnPool.expo
  rw [exp_apply, subf_apply, logitV_apply, broadcastTo_am1_amb_apply, shapeCast_ab_ab1_apply, peakV_apply]

theorem massV_apply (q h : Fin 8) :
    massV v0 v2 v4 v5 v7 v19 (ix2 q h) = Cert.AttnPool.mass E (fun a => v19 (ix2 q a)) W0 B0 BW BB h := by
  unfold massV Cert.AttnPool.mass
  rw [genesum_apply]
  simp only [expoV_apply]

theorem shareV_apply (q h : Fin 8) (g : Fin 512) :
    shareV v0 v2 v4 v5 v7 v19 (ix3 q h g) = Cert.AttnPool.share E (fun a => v19 (ix2 q a)) W0 B0 BW BB g h := by
  unfold shareV Cert.AttnPool.share
  rw [divf_apply, expoV_apply, broadcastTo_am1_amb_apply, shapeCast_ab_ab1_apply, massV_apply]

theorem weightV_apply (q : Fin 8) (g : Fin 512) :
    weightV v0 v2 v4 v5 v7 v19 (ix2 q g) = Cert.AttnPool.weight E (fun a => v19 (ix2 q a)) W0 B0 BW BB g := by
  unfold weightV Cert.AttnPool.weight
  rw [headsum_apply]
  simp only [shareV_apply]

theorem poolV_apply (q : Fin 8) (d : Fin 512) :
    poolV v0 v2 v4 v5 v7 v19 (ix2 q d) = Cert.AttnPool.pool E (fun a => v19 (ix2 q a)) W0 B0 BW BB d := by
  unfold poolV Cert.AttnPool.pool
  rw [matmul_pool_apply]
  refine Finset.sum_congr rfl fun g _ => ?_
  rw [truncf_apply, weightV_apply, embV_apply]

end Stages

/-- Row `q` of the payload, coordinate `d`, is the pooled embedding of the block `v0` against context row `q` of `v19`. -/
theorem pay_pool (v0 : Vec Ideal S1x512x512 .bf16) (v2 : Vec Ideal S512x400 .bf16) (v4 : Vec Ideal S400 .f32)
    (v5 : Vec Ideal S8x400 .bf16) (v7 : Vec Ideal S8 .f32) (v19 : Vec Ideal S8x400 .f32) (q : Fin 8) (d : Fin 512) :
    k0_pay1 (F := Ideal) v0 v2 v4 v5 v7 v19 (ix3 (0 : Fin 1) q d)
      = Cert.AttnPool.pool (fun g d' => v0 (ix3 (0 : Fin 1) g d')) (fun a => v19 (ix2 q a)) (fun d' a => v2 (ix2 d' a))
          (fun a => v4 (ix1 a)) (fun a h => v5 (ix2 h a)) (fun h => v7 (ix1 h)) d := by
  rw [pay_eq_stages, shapeCast_ab_1ab_apply]
  exact poolV_apply v0 v2 v4 v5 v7 v19 q d

end Cert.KernelIdeal.PayPool

end
-- ==== Proof.RefPool.lean ====
/-
  The reference computes the attention pooling: its result at (b, p, d) is `pool` of batch member `b`'s gathered
  embeddings against pathway `p`'s gathered context row. The two gathers stay as named stages here.
-/
import proofs.«414130_j42460046688738_3_alg».proof.Proof.Gen.ReferenceIdeal.Read
import proofs.«414130_j42460046688738_3_alg».proof.Proof.Pool
import Idealize.ShloMosaic.Lib.ValueIdx
import Idealize.ShloMosaic.PureOps.Ideal.Laws
import Idealize.ShloMosaic.PureOps.Reduce

noncomputable section

namespace Cert.ReferenceIdeal.RefPool

open Cert.ReferenceIdeal Cert.ReferenceIdeal.Gen Cert.ReferenceIdeal.Read Idealize.ShloMosaic Idealize.ShloMosaic.ValueIdx

section Stages

variable (x0 : (⟨S16x512, .i32⟩ : BufTy).Contents (Elt Ideal)) (x1 : (⟨S1x32, .i32⟩ : BufTy).Contents (Elt Ideal))
  (x2 : (⟨S20001x512, .f32⟩ : BufTy).Contents (Elt Ideal)) (x3 : (⟨S1000x400, .f32⟩ : BufTy).Contents (Elt Ideal))
  (x4 : (⟨S512x400, .f32⟩ : BufTy).Contents (Elt Ideal)) (x5 : (⟨S400, .f32⟩ : BufTy).Contents (Elt Ideal))
  (x6 : (⟨S400x8, .f32⟩ : BufTy).Contents (Elt Ideal)) (x7 : (⟨S8, .f32⟩ : BufTy).Contents (Elt Ideal))

/-- Batch member `b`'s gathered embeddings, gene × feature. -/
abbrev emb (b : Fin 16) : Fin 512 → Fin 512 → EReal := fun g d' => val_main_v6 (F := Ideal) x0 x2 (ix3 b g d')
/-- Pathway `p`'s gathered context row. -/
abbrev ctx (p : Fin 32) : Fin 400 → EReal := fun a => val_main_v18 (F := Ideal) x1 x3 (ix2 p a)
/-- The projection matrix by coordinates. -/
abbrev w0 : Fin 512 → Fin 400 → EReal := fun d' a => x4 (ix2 d' a)
/-- The projection bias by coordinate. -/
abbrev b0 : Fin 400 → EReal := fun a => x5 (ix1 a)
/-- The head weights by coordinates. -/
abbrev bw : Fin 400 → Fin 8 → EReal := fun a h => x6 (ix2 a h)
/-- The head biases by coordinate. -/
abbrev bb : Fin 8 → EReal := fun h => x7 (ix1 h)

/-! ## Index functions at explicit coordinates -/

theorem lidx7 (b : Fin 16) (g : Fin 512) (a : Fin 400) (k : Fin 512) : lidx_main_v7 (ix3 b g a) k = ix3 b g k := by
  funext c; match c with | ⟨0, _⟩ => rfl | ⟨1, _⟩ => rfl | ⟨2, _⟩ => rfl
theorem ridx7 (b : Fin 16) (g : Fin 512) (a : Fin 400) (k : Fin 512) : ridx_main_v7 (ix3 b g a) k = ix2 k a := by
  funext c; match c with | ⟨0, _⟩ => rfl | ⟨1, _⟩ => rfl
theorem idx8_9 (b : Fin 16) (g : Fin 512) (a : Fin 400) : idx_main_v8 (idx_main_v9 (ix3 b g a)) = ix1 a := by
  funext c; match c with | ⟨0, _⟩ => rfl

/-- The linear projection. -/
theorem v10_eq (b : Fin 16) (g : Fin 512) (a : Fin 400) :
    val_main_v10 (F := Ideal) x0 x2 x4 x5 (ix3 b g a) = Cert.AttnPool.proj (emb x0 x2 b) (w0 x4) (b0 x5) g a := by
  rw [val_main_v10_apply, val_main_v7_apply, val_main_v9_apply, val_main_v8_apply, idx8_9, Ideal.addf_def]
  unfold Cert.AttnPool.proj
  refine congrArg (· + x5 (ix1 a)) (Finset.sum_congr rfl fun k _ => ?_)
  rw [lidx7, ridx7]

/-! ## The feature -/

theorem idx19_21 (b : Fin 16) (p : Fin 32) (g : Fin 512) (a : Fin 400) :
    idx_main_v19 (idx_main_v21 (ix4 b p g a)) = ix3 b g a := by
  funext c; match c with | ⟨0, _⟩ => rfl | ⟨1, _⟩ => rfl | ⟨2, _⟩ => rfl
theorem idx20_22 (b : Fin 16) (p : Fin 32) (g : Fin 512) (a : Fin 400) :
    idx_main_v20 (idx_main_v22 (ix4 b p g a)) = ix2 p a := by
  funext c; match c with | ⟨0, _⟩ => rfl | ⟨1, _⟩ => rfl

/-- The additive-attention feature. -/
theorem v24_eq (b : Fin 16) (p : Fin 32) (g : Fin 512) (a : Fin 400) :
    val_main_v24 (F := Ideal) x0 x1 x2 x3 x4 x5 (ix4 b p g a)
      = Cert.AttnPool.feat (emb x0 x2 b) (ctx x1 x3 p) (w0 x4) (b0 x5) g a := by
  rw [val_main_v24_apply, val_main_v23_apply, val_main_v21_apply, val_main_v19_apply, val_main_v22_apply,
    val_main_v20_apply, idx19_21, idx20_22, v10_eq, Ideal.hostUnary_tanh_def, Ideal.addf_def]
  rfl

/-! ## The logit -/

theorem lidx25 (b : Fin 16) (p : Fin 32) (g : Fin 512) (h : Fin 8) (k : Fin 400) :
    lidx_main_v25 (ix4 b p g h) k = ix4 b p g k := by
  funext c; match c with | ⟨0, _⟩ => rfl | ⟨1, _⟩ => rfl | ⟨2, _⟩ => rfl | ⟨3, _⟩ => rfl
theorem ridx25 (b : Fin 16) (p : Fin 32) (g : Fin 512) (h : Fin 8) (k : Fin 400) :
    ridx_main_v25 (ix4 b p g h) k = ix2 k h := by
  funext c; match c with | ⟨0, _⟩ => rfl | ⟨1, _⟩ => rfl
theorem idx26_27 (b : Fin 16) (p : Fin 32) (g : Fin 512) (h : Fin 8) :
    idx_main_v26 (idx_main_v27 (ix4 b p g h)) = ix1 h := by
  funext c; match c with | ⟨0, _⟩ => rfl

/-- A head's logit of a gene. -/
theorem v28_eq (b : Fin 16) (p : Fin 32) (g : Fin 512) (h : Fin 8) :
    val_main_v28 (F := Ideal) x0 x1 x2 x3 x4 x5 x6 x7 (ix4 b p g h)
      = Cert.AttnPool.logit (emb x0 x2 b) (ctx x1 x3 p) (w0 x4) (b0 x5) (bw x6) (bb x7) g h := by
  rw [val_main_v28_apply, val_main_v25_apply, val_main_v27_apply, val_main_v26_apply, idx26_27, Ideal.addf_def]
  unfold Cert.AttnPool.logit
  refine congrArg (· + x7 (ix1 h)) (Finset.sum_congr rfl fun k _ => ?_)
  rw [lidx25, ridx25, v24_eq]

/-! ## The peak: a fold of `max` over the genes from −∞ -/

/-- The reduced index (b, p, h) with gene `k` put back on axis 2 is (b, p, k, h). -/
theorem lift29 (hr : S16x32x512x8.Reduces [2] S16x32x8) (b : Fin 16) (p : Fin 32) (h : Fin 8)
    (k : Fin (S16x32x512x8.size 2)) : hr.lift (ix3 b p h) k = ix4 b p (⟨k.val, k.isLt⟩ : Fin 512) h := by
  funext c; apply Fin.ext
  fin_cases c <;> rfl

/-- The initial value of the fold is the word `0xFF800000`'s value. -/
theorem cst_first : val_main_cst (F := Ideal) (Shape.Idx.first h_S_) = Cert.AttnPool.negInf := rfl

/-- The host's maximum-reduce over axis 2 from the word `0xFF800000`, at (b, p, h), is the fold of `max` over the genes. -/
theorem reduce29 (y : FVec Ideal S16x32x512x8 .f32) (b : Fin 16) (p : Fin 32) (h : Fin 8) :
    Host.reduce FloatOps.maximumf y (val_main_cst (F := Ideal)) reducesTo_S16x32x512x8_S16x32x8_d2 h_S_ (ix3 b p h)
      = (Finset.univ : Finset (Fin 512)).fold max Cert.AttnPool.negInf (fun g => y (ix4 b p g h)) := by
  have hr : S16x32x512x8.Reduces [2] S16x32x8 := by decide
  rw [Host.reduce_eq_fold_single FloatOps.maximumf y _ reducesTo_S16x32x512x8_S16x32x8_d2 hr h_S_, cst_first]
  have hf : (y ∘ hr.lift (ix3 b p h)) = fun g : Fin 512 => y (ix4 b p g h) :=
    funext fun k => congrArg y (lift29 hr b p h k)
  exact congrArg (fun f => Finset.fold max Cert.AttnPool.negInf f (Finset.univ : Finset (Fin 512))) hf

/-- The maximum over the genes. -/
theorem v29_eq (b : Fin 16) (p : Fin 32) (h : Fin 8) :
    val_main_v29 (F := Ideal) x0 x1 x2 x3 x4 x5 x6 x7 (ix3 b p h)
      = Cert.AttnPool.peak (emb x0 x2 b) (ctx x1 x3 p) (w0 x4) (b0 x5) (bw x6) (bb x7) h := by
  unfold val_main_v29
  refine (reduce29 _ b p h).trans ?_
  unfold Cert.AttnPool.peak
  refine congrArg (fun f => Finset.fold max Cert.AttnPool.negInf f (Finset.univ : Finset (Fin 512))) (funext fun g => ?_)
  exact v28_eq x0 x1 x2 x3 x4 x5 x6 x7 b p g h

/-- Taking the maximum with −∞ once more changes nothing. -/
theorem v31_eq (b : Fin 16) (p : Fin 32) (h : Fin 8) :
    val_main_v31 (F := Ideal) x0 x1 x2 x3 x4 x5 x6 x7 (ix3 b p h)
      = Cert.AttnPool.peak (emb x0 x2 b) (ctx x1 x3 p) (w0 x4) (b0 x5) (bw x6) (bb x7) h := by
  rw [val_main_v31_apply, val_main_v30_apply, val_main_cst_3_apply, v29_eq, Ideal.maximumf_def, Ideal.ofBits_def]
  exact Cert.AttnPool.max_negInf_left _

/-! ## The shifted exponential -/

theorem idx32_33 (b : Fin 16) (p : Fin 32) (g : Fin 512) (h : Fin 8) :
    idx_main_v32 (idx_main_v33 (ix4 b p g h)) = ix3 b p h := by
  funext c; match c with | ⟨0, _⟩ => rfl | ⟨1, _⟩ => rfl | ⟨2, _⟩ => rfl

/-- The exponential of the logit less the peak. -/
theorem v35_eq (b : Fin 16) (p : Fin 32) (g : Fin 512) (h : Fin 8) :
    val_main_v35 (F := Ideal) x0 x1 x2 x3 x4 x5 x6 x7 (ix4 b p g h)
      = Cert.AttnPool.expo (emb x0 x2 b) (ctx x1 x3 p) (w0 x4) (b0 x5) (bw x6) (bb x7) g h := by
  rw [val_main_v35_apply, val_main_v34_apply, val_main_v33_apply, val_main_v32_apply, idx32_33, v28_eq, v31_eq,
    Ideal.hostUnary_exp_def, Ideal.subf_def]
  rfl

/-! ## The normaliser -/

theorem idx36 (b : Fin 16) (p : Fin 32) (h : Fin 8) (k : Fin 512) : idx_main_v36 (ix3 b p h) k = ix4 b p k h := by
  funext c; match c with | ⟨0, _⟩ => rfl | ⟨1, _⟩ => rfl | ⟨2, _⟩ => rfl | ⟨3, _⟩ => rfl

/-- The sum of the exponentials over the genes. -/
theorem v36_eq (b : Fin 16) (p : Fin 32) (h : Fin 8) :
    val_main_v36 (F := Ideal) x0 x1 x2 x3 x4 x5 x6 x7 (ix3 b p h)
      = Cert.AttnPool.mass (emb x0 x2 b) (ctx x1 x3 p) (w0 x4) (b0 x5) (bw x6) (bb x7) h := by
  rw [val_main_v36_apply, val_main_cst_4_apply, Ideal.ofBits_def, Ideal.ofBits_zero_f32, zero_add]
  unfold Cert.AttnPool.mass
  refine Finset.sum_congr rfl fun k _ => ?_
  rw [idx36, v35_eq]

/-! ## The share -/

theorem idx37_38 (b : Fin 16) (p : Fin 32) (g : Fin 512) (h : Fin 8) :
    idx_main_v37 (idx_main_v38 (ix4 b p g h)) = ix3 b p h := by
  funext c; match c with | ⟨0, _⟩ => rfl | ⟨1, _⟩ => rfl | ⟨2, _⟩ => rfl

/-- A gene's softmax share under a head. -/
theorem v39_eq (b : Fin 16) (p : Fin 32) (g : Fin 512) (h : Fin 8) :
    val_main_v39 (F := Ideal) x0 x1 x2 x3 x4 x5 x6 x7 (ix4 b p g h)
      = Cert.AttnPool.share (emb x0 x2 b) (ctx x1 x3 p) (w0 x4) (b0 x5) (bw x6) (bb x7) g h := by
  rw [val_main_v39_apply, val_main_v38_apply, val_main_v37_apply, idx37_38, v35_eq, v36_eq, Ideal.hostDivf_def]
  rfl

/-! ## The weight -/

theorem idx40 (b : Fin 16) (p : Fin 32) (g : Fin 512) (k : Fin 8) : idx_main_v40 (ix3 b p g) k = ix4 b p g k := by
  funext c; match c with | ⟨0, _⟩ => rfl | ⟨1, _⟩ => rfl | ⟨2, _⟩ => rfl | ⟨3, _⟩ => rfl

/-- A gene's shares summed over the heads. -/
theorem v40_eq (b : Fin 16) (p : Fin 32) (g : Fin 512) :
    val_main_v40 (F := Ideal) x0 x1 x2 x3 x4 x5 x6 x7 (ix3 b p g)
      = Cert.AttnPool.weight (emb x0 x2 b) (ctx x1 x3 p) (w0 x4) (b0 x5) (bw x6) (bb x7) g := by
  rw [val_main_v40_apply, val_main_cst_5_apply, Ideal.ofBits_def, Ideal.ofBits_zero_f32, zero_add]
  unfold Cert.AttnPool.weight
  refine Finset.sum_congr rfl fun k _ => ?_
  rw [idx40, v39_eq]

/-! ## The pooled embedding -/

theorem lidx41 (b : Fin 16) (p : Fin 32) (d : Fin 512) (k : Fin 512) : lidx_main_v41 (ix3 b p d) k = ix3 b p k := by
  funext c; match c with | ⟨0, _⟩ => rfl | ⟨1, _⟩ => rfl | ⟨2, _⟩ => rfl
theorem ridx41 (b : Fin 16) (p : Fin 32) (d : Fin 512) (k : Fin 512) : ridx_main_v41 (ix3 b p d) k = ix3 b k d := by
  funext c; match c with | ⟨0, _⟩ => rfl | ⟨1, _⟩ => rfl | ⟨2, _⟩ => rfl

/-- The weighted sum of the gene embeddings. -/
theorem v41_eq (b : Fin 16) (p : Fin 32) (d : Fin 512) :
    val_main_v41 (F := Ideal) x0 x1 x2 x3 x4 x5 x6 x7 (ix3 b p d)
      = Cert.AttnPool.pool (emb x0 x2 b) (ctx x1 x3 p) (w0 x4) (b0 x5) (bw x6) (bb x7) d := by
  rw [val_main_v41_apply]
  unfold Cert.AttnPool.pool
  refine Finset.sum_congr rfl fun k _ => ?_
  rw [lidx41, ridx41, v40_eq]

end Stages

/-- The reference's result at (b, p, d). -/
theorem ref_pool (x0 : (⟨S16x512, .i32⟩ : BufTy).Contents (Elt Ideal)) (x1 : (⟨S1x32, .i32⟩ : BufTy).Contents (Elt Ideal))
    (x2 : (⟨S20001x512, .f32⟩ : BufTy).Contents (Elt Ideal)) (x3 : (⟨S1000x400, .f32⟩ : BufTy).Contents (Elt Ideal))
    (x4 : (⟨S512x400, .f32⟩ : BufTy).Contents (Elt Ideal)) (x5 : (⟨S400, .f32⟩ : BufTy).Contents (Elt Ideal))
    (x6 : (⟨S400x8, .f32⟩ : BufTy).Contents (Elt Ideal)) (x7 : (⟨S8, .f32⟩ : BufTy).Contents (Elt Ideal))
    (b : Fin 16) (p : Fin 32) (d : Fin 512) :
    val_main_v41 (F := Ideal) x0 x1 x2 x3 x4 x5 x6 x7 (ix3 b p d)
      = Cert.AttnPool.pool (fun g d' => val_main_v6 (F := Ideal) x0 x2 (ix3 b g d')) (fun a => val_main_v18 (F := Ideal) x1 x3 (ix2 p a))
          (fun d' a => x4 (ix2 d' a)) (fun a => x5 (ix1 a)) (fun a h => x6 (ix2 a h)) (fun h => x7 (ix1 h)) d :=
  v41_eq x0 x1 x2 x3 x4 x5 x6 x7 b p d

end Cert.ReferenceIdeal.RefPool

end
-- ==== Proof.PreRange.lean ====
/-
  The index part of the precondition, read back: when the printed predicate is 1, every gene index lies in
  `[−20001, 20000]` and every pathway id in `[−1000, 999]` (as signed 32-bit integers), stated as the comparison words
  the predicate computes. The predicate is a conjunction of ten `all`s; the last four are these ranges.
-/
import proofs.«414130_j42460046688738_3_alg».proof.Pre_finite_inputs
import Idealize.ShloMosaic.Lib.ReduceAll
import Idealize.ShloMosaic.Lib.ValueIdx

noncomputable section

namespace Cert.PreRange

open Cert.Pre_finite_inputs Idealize.ShloMosaic Idealize.ShloMosaic.ValueIdx

variable [Cert.Pre_finite_inputs.Facts] {F : FTy → Type} [FloatOps F]

instance : Subsingleton S_.Idx := ⟨fun a b => funext fun d => d.elim0⟩

/-- The four index ranges the precondition states. -/
theorem ranges (x0 : IVec S16x512 32) (x1 : IVec S1x32 32) (x2 : FVec F S20001x512 .f32) (x3 : FVec F S1000x400 .f32)
    (x4 : FVec F S512x400 .f32) (x5 : FVec F S400 .f32) (x6 : FVec F S400x8 .f32) (x7 : FVec F S8 .f32)
    (h : Cert.Pre_finite_inputs.fn (F := F) x0 x1 x2 x3 x4 x5 x6 x7 = fun _ => 1#1) :
    (∀ i, IntOp.cmpi .sge (x0 i) 4294947295#32 = 1#1) ∧ (∀ i, IntOp.cmpi .sle (x0 i) 20000#32 = 1#1)
    ∧ (∀ i, IntOp.cmpi .sge (x1 i) 4294966296#32 = 1#1) ∧ (∀ i, IntOp.cmpi .sle (x1 i) 999#32 = 1#1) := by
  have h0 := congrFun h ix0
  dsimp only [Cert.Pre_finite_inputs.fn, Cert.Pre_finite_inputs.fn_part1, Cert.Pre_finite_inputs.fn_part2] at h0
  obtain ⟨h1, hD⟩ := IntOp.andi_eq_one.1 h0
  obtain ⟨h2, hC⟩ := IntOp.andi_eq_one.1 h1
  obtain ⟨h3, hB⟩ := IntOp.andi_eq_one.1 h2
  obtain ⟨_, hA⟩ := IntOp.andi_eq_one.1 h3
  exact ⟨fun i => Host.reduce_andi_all _ _ _ _ _ hA i, fun i => Host.reduce_andi_all _ _ _ _ _ hB i,
    fun i => Host.reduce_andi_all _ _ _ _ _ hC i, fun i => Host.reduce_andi_all _ _ _ _ _ hD i⟩

end Cert.PreRange

end
-- ==== Proof.Bridge.lean ====
/-
  The two programs end at one array. At the ideal instance, with the row indices in NumPy's range:
  the kernel's result at (b, 8k + q, d) is its body's payload of batch member b and context rows 8k … 8k+7 at row q, which
  is `pool` of member b's gene rows against pathway (8k + q)'s context row; the reference's result at (b, p, d) is `pool`
  of the same rows. The gene rows and the context rows are the same gathers in both programs once the kernel's range test
  is known to pass; the kernel's bf16 roundings are the identity here, and its head weight is the reference's, transposed.
-/
import proofs.«414130_j42460046688738_3_alg».proof.Proof.KernelValue
import proofs.«414130_j42460046688738_3_alg».proof.Proof.KernelHost
import proofs.«414130_j42460046688738_3_alg».proof.Proof.PayPool
import proofs.«414130_j42460046688738_3_alg».proof.Proof.RefPool
import proofs.«414130_j42460046688738_3_alg».proof.Proof.PreRange
import proofs.«414130_j42460046688738_3_alg».proof.Proof.Gen.Pre_finite_inputs
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.ValueIdx
open Cert.KernelIdeal.HostSide Cert.KernelIdeal.KValue Cert.KernelIdeal.Pieces

/-- The loop makes exactly four trips. -/
theorem trips_eq : Cert.KernelIdeal.k0_t1_loop.trips = 4 := by decide

/-- Every pathway row is row `p % 8` of chunk `p / 8`. -/
theorem row_split (p : Fin 32) :
    ∃ (k : Fin Cert.KernelIdeal.k0_t1_loop.trips) (q : Fin 8), chunkRow k q = p :=
  ⟨⟨p.val / 8, by rw [trips_eq]; have := p.isLt; omega⟩, ⟨p.val % 8, Nat.mod_lt _ (by decide)⟩,
    Fin.ext (by show 8 * (p.val / 8) + p.val % 8 = p.val; omega)⟩

/-! ## The gathers are the reference's -/

theorem gene_rows_eq (x0 : IVec Cert.KernelIdeal.S16x512 32) (x2 : FVec Ideal Cert.KernelIdeal.S20001x512 .f32) :
    geneRows (F := Ideal) x0 x2 = Cert.ReferenceIdeal.Read.val_main_v6 (F := Ideal) x0 x2 := rfl

theorem ptw_rows_eq (x1 : IVec Cert.KernelIdeal.S1x32 32) (x3 : FVec Ideal Cert.KernelIdeal.S1000x400 .f32) :
    ptwRows (F := Ideal) (ptwFlat x1) x3 = Cert.ReferenceIdeal.Read.val_main_v18 (F := Ideal) x1 x3 := rfl

/-! ## The kernel's result is `pool` -/

section Kernel

open Cert.KernelIdeal Cert.KernelIdeal.Gen

variable (m : (ℓ : Loc nD τ sig) → Buf (Elt Ideal) ℓ)

/-- The kernel's result at (t, 8k + q, d), in terms of the program's arguments, the indices in range. -/
theorem kernel_pool (c : Dev nD)
    (lo0 : ∀ i, IntOp.cmpi .sge (m ((c : Thread nD τ).loc main_arg0) i) 4294947295#32 = 1#1)
    (hi0 : ∀ i, IntOp.cmpi .sle (m ((c : Thread nD τ).loc main_arg0) i) 20000#32 = 1#1)
    (lo1 : ∀ i, IntOp.cmpi .sge (m ((c : Thread nD τ).loc main_arg1) i) 4294966296#32 = 1#1)
    (hi1 : ∀ i, IntOp.cmpi .sle (m ((c : Thread nD τ).loc main_arg1) i) 999#32 = 1#1)
    (t : Fin cfg0.N) (k : Fin k0_t1_loop.trips) (q : Fin 8) (d : Fin 512) :
    (dats m 0 c).arrAt 6 cfg0.N (ix3 (member t) (chunkRow k q) d)
      = Cert.AttnPool.pool
          (fun g d' => geneRows (F := Ideal) (m ((c : Thread nD τ).loc main_arg0)) (m ((c : Thread nD τ).loc main_arg2)) (ix3 (member t) g d'))
          (fun a => ptwRows (F := Ideal) (ptwFlat (m ((c : Thread nD τ).loc main_arg1))) (m ((c : Thread nD τ).loc main_arg3)) (ix2 (chunkRow k q) a))
          (fun d' a => m ((c : Thread nD τ).loc main_arg4) (ix2 d' a)) (fun a => m ((c : Thread nD τ).loc main_arg5) (ix1 a))
          (fun a h => m ((c : Thread nD τ).loc main_arg6) (ix2 a h)) (fun h => m ((c : Thread nD τ).loc main_arg7) (ix1 h)) d := by
  rw [arr_apply, Cert.KernelIdeal.PayPool.pay_pool]
  have hE : (fun g d' => iblk m c 0 t (ix3 (0 : Fin 1) g d'))
      = fun g d' => geneRows (F := Ideal) (m ((c : Thread nD τ).loc main_arg0)) (m ((c : Thread nD τ).loc main_arg2)) (ix3 (member t) g d') := by
    funext g d'
    rw [blk0_apply, V_main_v1, geneTake_eq _ _ lo0 hi0]; rfl
  have hC : (fun a => chunk (iblk m c 3 t) k (ix2 q a))
      = fun a => ptwRows (F := Ideal) (ptwFlat (m ((c : Thread nD τ).loc main_arg1))) (m ((c : Thread nD τ).loc main_arg3)) (ix2 (chunkRow k q) a) := by
    funext a
    show iblk m c 3 t (ix2 (chunkRow k q) a) = _
    rw [blk3_apply, V_main_v3, ptwTake_eq _ _ (fun i => by rw [ptwFlat_apply]; exact lo1 _) (fun i => by rw [ptwFlat_apply]; exact hi1 _)]
  have hW : (fun d' a => iblk m c 1 t (ix2 d' a)) = fun d' a => m ((c : Thread nD τ).loc main_arg4) (ix2 d' a) := by
    funext d' a
    rw [blk1_apply, V_main_v4]; rfl
  have hB : (fun a => iblk m c 2 t (ix1 a)) = fun a => m ((c : Thread nD τ).loc main_arg5) (ix1 a) := by
    funext a
    rw [blk2_apply, V_main_arg5]
  have hH : (fun a h => iblk m c 4 t (ix2 h a)) = fun a h => m ((c : Thread nD τ).loc main_arg6) (ix2 a h) := by
    funext a h
    rw [blk4_apply, V_main_v6]
    show transpose S8x400 [1, 0] (m ((c : Thread nD τ).loc main_arg6)) transposes_S400x8_S8x400_1_0 (ix2 h a) = _
    exact transpose_apply _ _ _ (ix2 h a) (ix2 a h) (fun b => by match b with | ⟨0, _⟩ => rfl | ⟨1, _⟩ => rfl)
  have hb : (fun h => iblk m c 5 t (ix1 h)) = fun h => m ((c : Thread nD τ).loc main_arg7) (ix1 h) := by
    funext h
    rw [blk5_apply, V_main_arg7]
  rw [hE, hC, hW, hB, hH, hb]

end Kernel

/-! ## The two result arrays -/

/-- With the precondition and the two memories agreeing on the arguments, the reference's result array is the kernel's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v41 m' c
      = (Cert.KernelIdeal.Gen.dats m 0 c).arrAt 6 Cert.KernelIdeal.cfg0.N := by
  obtain ⟨lo0, hi0, lo1, hi1⟩ := Cert.PreRange.ranges _ _ _ _ _ _ _ _ hpre
  rw [Cert.ReferenceIdeal.Read.val_main_v41_eq, a0, a1, a2, a3, a4, a5, a6, a7]
  funext i
  obtain ⟨b, p, d, rfl⟩ : ∃ (b : Fin 16) (p : Fin 32) (d : Fin 512), i = ix3 b p d := ⟨i 0, i 1, i 2, eq_ix3 i⟩
  obtain ⟨k, q, rfl⟩ := row_split p
  rw [Cert.ReferenceIdeal.RefPool.ref_pool]
  have hk := kernel_pool m c lo0 hi0 lo1 hi1
    ⟨b.val, by have h : b.val < Cert.KernelIdeal.grid0.N := by rw [Cert.KernelIdeal.Gen.N_0]; exact b.isLt
               exact h⟩ k q d
  exact hk.symm

end Cert.Bridge

end
-- ==== Proof.lean ====
/-
  The certificate of an attention-pooling kernel against its jnp reference, over the extended reals.

  For 16 batch members, 32 pathways, 512 genes: each batch member's gene embeddings E (rows of a 20001-row table picked by
  integer indices) are projected, shifted by a pathway's context row (a row of a 1000-row table), passed through tanh and
  eight attention heads; a softmax over the genes per head, the heads summed, weights the embeddings (Proof/Pool.lean:
  `pool`). The kernel does this one batch member per grid point, eight pathways per trip of an inner loop, on bf16
  copies of the operands and a transposed head weight; the reference does it on whole arrays. At the ideal instance a
  change of float format is the identity and every operation exact, so both are `pool`, index by index; the one law used
  is the commutativity of the product.

  The precondition asks the float inputs to be finite and the row indices to lie in NumPy's range (−n ≤ index ≤ n − 1 for a
  table of n rows). Both programs wrap a negative index by n; the kernel's `take` then replaces every row whose wrapped index
  is out of range by a fill word, which the reference does not, so outside that range the two differ; inside it the test
  always passes (Proof/IndexRange.lean) and the kernel's gathers are the reference's. Finiteness is not used.

  The three frames: the kernel's two are the generated frame certificates; the reference has no kernel, and its frame is its
  generated run with the result dropped. `preserves` is trivial: the idealisation rewrote nothing.
-/
import proofs.«414130_j42460046688738_3_alg».proof.Defs
import proofs.«414130_j42460046688738_3_alg».proof.Proof.Gen.Kernel
import proofs.«414130_j42460046688738_3_alg».proof.Proof.Gen.Kernel.Skeleton
import proofs.«414130_j42460046688738_3_alg».proof.Proof.Gen.Kernel.Loops
import proofs.«414130_j42460046688738_3_alg».proof.Proof.Gen.Kernel.Launch
import proofs.«414130_j42460046688738_3_alg».proof.Proof.Gen.Kernel.Points
import proofs.«414130_j42460046688738_3_alg».proof.Proof.Gen.Kernel.Frame
import proofs.«414130_j42460046688738_3_alg».proof.Proof.Gen.KernelIdeal
import proofs.«414130_j42460046688738_3_alg».proof.Proof.Gen.KernelIdeal.Skeleton
import proofs.«414130_j42460046688738_3_alg».proof.Proof.Gen.KernelIdeal.Loops
import proofs.«414130_j42460046688738_3_alg».proof.Proof.Gen.KernelIdeal.Launch
import proofs.«414130_j42460046688738_3_alg».proof.Proof.Gen.KernelIdeal.Points
import proofs.«414130_j42460046688738_3_alg».proof.Proof.Gen.KernelIdeal.Frame
import proofs.«414130_j42460046688738_3_alg».proof.Proof.Gen.ReferenceIdeal
import proofs.«414130_j42460046688738_3_alg».proof.Proof.Gen.Pre_finite_inputs
import proofs.«414130_j42460046688738_3_alg».proof.Proof.Gen.KernelIdeal.Value
import proofs.«414130_j42460046688738_3_alg».proof.Proof.Gen.ReferenceIdeal.Run
import proofs.«414130_j42460046688738_3_alg».proof.Proof.Gen.ReferenceIdeal.Read
import proofs.«414130_j42460046688738_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at one array: the kernel's, block by block what its grid points wrote (the generated value leg),
    is the reference's composed term (its generated run) index by index, both being `pool` of the same gathered rows. -/
theorem algebraic : Cert.algebraic_KernelIdeal_ReferenceIdeal := by
  intro m ρ m' ρ' hpre hagree
  refine ⟨fun c => (Cert.KernelIdeal.Gen.dats m 0 c).arrAt 6 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  exact Cert.Bridge.result_eq m m' c (hpre c) a0 a1 a2 a3 a4 a5 a6 a7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
